-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x128 : Shape := ⟨3, ![1024, 16, 128]⟩
abbrev S256x128 : Shape := ⟨2, ![256, 128]⟩
abbrev S128 : Shape := ⟨1, ![128]⟩
abbrev S128x128 : Shape := ⟨2, ![128, 128]⟩
abbrev S120 : Shape := ⟨1, ![120]⟩
abbrev S_ : Shape := ⟨0, ![]⟩

class Facts : Prop where
  bcast_S_S1024x16x128 : S_.BroadcastsInDim S1024x16x128 (![] : Fin 0 → Fin S1024x16x128.rank)
  reducesTo_S1024x16x128_S_d0_1_2 : S1024x16x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S120 : S_.BroadcastsInDim S120 (![] : Fin 0 → Fin S120.rank)
  reducesTo_S120_S_d0 : S120.ReducesTo [0] S_

variable [Facts]

def fn_part2 {F : FTy → Type} [FloatOps F] (main_arg7 : IVec S120 32) (main_arg8 : IVec S120 32) (main_v33 : IVec S_ 1) : IVec S_ 1 :=
  let main_c_12 : IVec S_ 32 := constantI S_ 32 0#32
  let main_v34 : IVec S120 32 := broadcastInDim S120 ![] bcast_S_S120 main_c_12
  let main_v35 : IVec S120 1 := cmpi .sge main_arg7 main_v34
  let main_c_13 : IVec S_ 32 := constantI S_ 32 16#32
  let main_v36 : IVec S120 32 := broadcastInDim S120 ![] bcast_S_S120 main_c_13
  let main_v37 : IVec S120 1 := cmpi .slt main_arg7 main_v36
  let main_v38 : IVec S120 1 := andi main_v35 main_v37
  let main_c_14 : IVec S_ 1 := constantI S_ 1 1#1
  let main_v39 : IVec S_ 1 := (fun x v => Host.reduce IntOp.andi x v reducesTo_S120_S_d0 h_S_) main_v38 main_c_14
  let main_v40 : IVec S_ 1 := andi main_v33 main_v39
  let main_c_15 : IVec S_ 32 := constantI S_ 32 0#32
  let main_v41 : IVec S120 32 := broadcastInDim S120 ![] bcast_S_S120 main_c_15
  let main_v42 : IVec S120 1 := cmpi .sge main_arg8 main_v41
  let main_c_16 : IVec S_ 32 := constantI S_ 32 16#32
  let main_v43 : IVec S120 32 := broadcastInDim S120 ![] bcast_S_S120 main_c_16
  let main_v44 : IVec S120 1 := cmpi .slt main_arg8 main_v43
  let main_v45 : IVec S120 1 := andi main_v42 main_v44
  let main_c_17 : IVec S_ 1 := constantI S_ 1 1#1
  let main_v46 : IVec S_ 1 := (fun x v => Host.reduce IntOp.andi x v reducesTo_S120_S_d0 h_S_) main_v45 main_c_17
  let main_v47 : IVec S_ 1 := andi main_v40 main_v46
  main_v47

def fn_part1 {F : FTy → Type} [FloatOps F] (main_arg4 : FVec F S128 .f32) (main_arg5 : FVec F S128x128 .f32) (main_arg6 : FVec F S128 .f32) (main_arg7 : IVec S120 32) (main_arg8 : IVec S120 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S1024x16x128 .f32) (main_arg1 : FVec F S256x128 .f32) (main_arg2 : FVec F S128 .f32) (main_arg3 : FVec F S128x128 .f32) (main_arg4 : FVec F S128 .f32) (main_arg5 : FVec F S128x128 .f32) (main_arg6 : FVec F S128 .f32) (main_arg7 : IVec S120 32) (main_arg8 : IVec S120 32) : IVec S_ 1 :=
  let main_v0 : FVec F S1024x16x128 .f32 := Host.absf main_arg0
  let main_cst : FVec F S_ .f32 := constant S_ .f32 0x7F800000#32
  let main_v1 : FVec F S1024x16x128 .f32 := broadcastInDim S1024x16x128 ![] bcast_S_S1024x16x128 main_cst
  let main_v2 : IVec S1024x16x128 1 := cmpf .olt main_v0 main_v1
  let main_c : IVec S_ 1 := constantI S_ 1 1#1
  let main_v3 : IVec S_ 1 := (fun x v => Host.reduce IntOp.andi x v reducesTo_S1024x16x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S1024x16x128 : Shape := ⟨3, ![1024, 16, 128]⟩
abbrev S256x128 : Shape := ⟨2, ![256, 128]⟩
abbrev S128 : Shape := ⟨1, ![128]⟩
abbrev S128x128 : Shape := ⟨2, ![128, 128]⟩
abbrev S120 : Shape := ⟨1, ![120]⟩
abbrev S128x256 : Shape := ⟨2, ![128, 256]⟩
abbrev S120x1 : Shape := ⟨2, ![120, 1]⟩
abbrev S1x16 : Shape := ⟨2, ![1, 16]⟩
abbrev S120x16 : Shape := ⟨2, ![120, 16]⟩
abbrev S120x32 : Shape := ⟨2, ![120, 32]⟩
abbrev S1024x128 : Shape := ⟨2, ![1024, 128]⟩
abbrev S128x16x128 : Shape := ⟨3, ![128, 16, 128]⟩
abbrev S2048x128 : Shape := ⟨2, ![2048, 128]⟩
abbrev S2048x256 : Shape := ⟨2, ![2048, 256]⟩
abbrev S1x128 : Shape := ⟨2, ![1, 128]⟩
abbrev S128x32x128 : Shape := ⟨3, ![128, 32, 128]⟩
abbrev S1x120x32 : Shape := ⟨3, ![1, 120, 32]⟩
abbrev S128x120x32 : Shape := ⟨3, ![128, 120, 32]⟩
abbrev S128x120x128 : Shape := ⟨3, ![128, 120, 128]⟩
abbrev S15360x128 : Shape := ⟨2, ![15360, 128]⟩

abbrev nBuf : Space → Nat
  | .hbm => 29
  | .vmem => 11
  | .smem => 0
  | _ => 0

abbrev bufTy : (tb : Table) → Fin (tcTables nBuf tb) → BufTy
  | .hbm, ⟨0, _⟩ => ⟨S1024x16x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S120, .i32⟩
  | .hbm, ⟨8, _⟩ => ⟨S120, .i32⟩
  | .hbm, ⟨9, _⟩ => ⟨S128x128, .f32⟩
  | .hbm, ⟨10, _⟩ => ⟨S128x128, .f32⟩
  | .hbm, ⟨11, _⟩ => ⟨S128x256, .f32⟩
  | .hbm, ⟨12, _⟩ => ⟨S128x256, .bf16⟩
  | .hbm, ⟨13, _⟩ => ⟨S128x128, .bf16⟩
  | .hbm, ⟨14, _⟩ => ⟨S128x128, .bf16⟩
  | .hbm, ⟨15, _⟩ => ⟨S120x1, .i32⟩
  | .hbm, ⟨16, _⟩ => ⟨S1x16, .i32⟩
  | .hbm, ⟨17, _⟩ => ⟨S120x16, .i32⟩
  | .hbm, ⟨18, _⟩ => ⟨S120x16, .i32⟩
  | .hbm, ⟨19, _⟩ => ⟨S120x16, .i1⟩
  | .hbm, ⟨20, _⟩ => ⟨S120x16, .bf16⟩
  | .hbm, ⟨21, _⟩ => ⟨S120x1, .i32⟩
  | .hbm, ⟨22, _⟩ => ⟨S1x16, .i32⟩
  | .hbm, ⟨23, _⟩ => ⟨S120x16, .i32⟩
  | .hbm, ⟨24, _⟩ => ⟨S120x16, .i32⟩
  | .hbm, ⟨25, _⟩ => ⟨S120x16, .i1⟩
  | .hbm, ⟨26, _⟩ => ⟨S120x16, .bf16⟩
  | .hbm, ⟨27, _⟩ => ⟨S120x32, .bf16⟩
  | .hbm, ⟨28, _⟩ => ⟨S1024x128, .f32⟩
  | .local _ .vmem, ⟨0, _⟩ => ⟨S128x16x128, .f32⟩
  | .local _ .vmem, ⟨1, _⟩ => ⟨S128x16x128, .f32⟩
  | .local _ .vmem, ⟨2, _⟩ => ⟨S128x256, .bf16⟩
  | .local _ .vmem, ⟨3, _⟩ => ⟨S128, .f32⟩
  | .local _ .vmem, ⟨4, _⟩ => ⟨S120x32, .bf16⟩
  | .local _ .vmem, ⟨5, _⟩ => ⟨S128x128, .bf16⟩
  | .local _ .vmem, ⟨6, _⟩ => ⟨S128, .f32⟩
  | .local _ .vmem, ⟨7, _⟩ => ⟨S128x128, .bf16⟩
  | .local _ .vmem, ⟨8, _⟩ => ⟨S128, .f32⟩
  | .local _ .vmem, ⟨9, _⟩ => ⟨S128x128, .f32⟩
  | .local _ .vmem, ⟨10, _⟩ => ⟨S128x128, .f32⟩
  | _, _ => ⟨S1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S120x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S256x128_S128x128_0_0 : S256x128.Slices ![0, 0] S128x128
  slices_S256x128_S128x128_128_0 : S256x128.Slices ![128, 0] S128x128
  concatenates_S128x128_S128x128_S128x256_d1 : Shape.Concatenates [S128x128, S128x128] S128x256 1
  bitsLt_bf16_f32 : FTy.bits .bf16 < FTy.bits .f32
  bcast_S120_S120x1_0 : S120.BroadcastsInDim S120x1 (![0] : Fin 1 → Fin S120x1.rank)
  bcast_S120x1_S120x16_0_1 : S120x1.BroadcastsInDim S120x16 (![0, 1] : Fin 2 → Fin S120x16.rank)
  bcast_S1x16_S120x16_0_1 : S1x16.BroadcastsInDim S120x16 (![0, 1] : Fin 2 → Fin S120x16.rank)
  concatenates_S120x16_S120x16_S120x32_d1 : Shape.Concatenates [S120x16, S120x16] S120x32 1
  inb_S128x16x128_S128x16x128_0_0_0 : ∀ a, (![0, 0, 0] : Fin 3 → Nat) a + S128x16x128.size a ≤ S128x16x128.size a
  h_S128x16x128 : 0 < S128x16x128.numel
  shapeCasts_S128x16x128_S2048x128 : S128x16x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S2048x256_o0_0_S2048x128 : S2048x256.Slices ![0, 0] S2048x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  slices_S2048x256_o0_128_S2048x128 : S2048x256.Slices ![0, 128] S2048x128
  shapeCasts_S2048x128_S128x16x128 : S2048x128.ShapeCasts S128x16x128
  concatenates_S128x16x128_S128x16x128_S128x32x128_d1 : Shape.Concatenates [S128x16x128, S128x16x128] S128x32x128 1
  inb_S120x32_S120x32_0_0 : ∀ a, (![0, 0] : Fin 2 → Nat) a + S120x32.size a ≤ S120x32.size a
  h_S120x32 : 0 < S120x32.numel
  shapeCasts_S120x32_S120x32 : S120x32.ShapeCasts S120x32
  shapeCasts_S120x32_S1x120x32 : S120x32.ShapeCasts S1x120x32
  shapeCasts_S1x120x32_S1x120x32 : S1x120x32.ShapeCasts S1x120x32
  broadcasts_S1x120x32_S128x120x32 : S1x120x32.Broadcasts S128x120x32
  shapeCasts_S128x120x128_S15360x128 : S128x120x128.ShapeCasts S15360x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S15360x128 : S1x128.Broadcasts S15360x128
  shapeCasts_S15360x128_S128x120x128 : S15360x128.ShapeCasts S128x120x128
  reduces_S128x120x128_S128x128 : S128x120x128.Reduces [1] S128x128
  dot_S2048x128_S128x256_S2048x256_1_0_0_1_n_n_wf : DotDims.WF S2048x128 S128x256 S2048x256 [1] [0] [0] [1] [] []
  dot_S128x120x32_S128x32x128_S128x120x128_2_1_1_2_0_0_wf : DotDims.WF S128x120x32 S128x32x128 S128x120x128 [2] [1] [1] [2] [0] [0]
  dot_S15360x128_S128x128_S15360x128_1_0_0_1_n_n_wf : DotDims.WF S15360x128 S128x128 S15360x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x128.size a ≤ S1024x16x128.size a
  hwx0_0 : ∀ i : grid0.Coords, EltTy.bits .f32 = 32 ∨ (Rect.block (s := S1024x16x128) S128x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S120x32.size a ≤ S120x32.size a
  hwx0_3 : ∀ i : grid0.Coords, EltTy.bits .bf16 = 32 ∨ (Rect.block (s := S120x32) S120x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S1024x128.size a
  hwx0_8 : ∀ i : grid0.Coords, EltTy.bits .f32 = 32 ∨ (Rect.block (s := S1024x128) S128x128.size (cc0_transform_8 i) (hinb0_8 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S128x120x32_S128x32x128_S128x120x128_2_1_1_2_0_0 : DotDims S128x120x32 S128x32x128 S128x120x128 where
  lhsContracting := [2]
  rhsContracting := [1]
  lhsNonContracting := [1]
  rhsNonContracting := [2]
  lhsBatch := [0]
  rhsBatch := [0]
  wf := dot_S128x120x32_S128x32x128_S128x120x128_2_1_1_2_0_0_wf
def dot_S15360x128_S128x128_S15360x128_1_0_0_1_n_n : DotDims S15360x128 S128x128 S15360x128 where
  lhsContracting := [1]
  rhsContracting := [0]
  lhsNonContracting := [0]
  rhsNonContracting := [1]
  lhsBatch := []
  rhsBatch := []
  wf := dot_S15360x128_S128x128_S15360x128_1_0_0_1_n_n_wf

abbrev win0_0 : Pipeline.Window sig grid0 :=
  Pipeline.Window.ofSpec (Memref.whole main_arg0) S128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S120x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x16x128 : Shape := ⟨3, ![1024, 16, 128]⟩
abbrev S256x128 : Shape := ⟨2, ![256, 128]⟩
abbrev S128 : Shape := ⟨1, ![128]⟩
abbrev S128x128 : Shape := ⟨2, ![128, 128]⟩
abbrev S120 : Shape := ⟨1, ![120]⟩
abbrev S_ : Shape := ⟨0, ![]⟩
abbrev S120x1 : Shape := ⟨2, ![120, 1]⟩
abbrev S1024x120x128 : Shape := ⟨3, ![1024, 120, 128]⟩
abbrev S1024x120x256 : Shape := ⟨3, ![1024, 120, 256]⟩
abbrev S1x1x128 : Shape := ⟨3, ![1, 1, 128]⟩
abbrev S1024x128 : Shape := ⟨2, ![1024, 128]⟩

abbrev nBuf : Space → Nat
  | .hbm => 54
  | .vmem => 0
  | .smem => 0
  | _ => 0

abbrev bufTy : (tb : Table) → Fin (tcTables nBuf tb) → BufTy
  | .hbm, ⟨0, _⟩ => ⟨S1024x16x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S120, .i32⟩
  | .hbm, ⟨8, _⟩ => ⟨S120, .i32⟩
  | .hbm, ⟨9, _⟩ => ⟨S_, .i32⟩
  | .hbm, ⟨10, _⟩ => ⟨S120, .i32⟩
  | .hbm, ⟨11, _⟩ => ⟨S120, .i1⟩
  | .hbm, ⟨12, _⟩ => ⟨S_, .i32⟩
  | .hbm, ⟨13, _⟩ => ⟨S120, .i32⟩
  | .hbm, ⟨14, _⟩ => ⟨S120, .i32⟩
  | .hbm, ⟨15, _⟩ => ⟨S120, .i32⟩
  | .hbm, ⟨16, _⟩ => ⟨S120x1, .i32⟩
  | .hbm, ⟨17, _⟩ => ⟨S1024x120x128, .f32⟩
  | .hbm, ⟨18, _⟩ => ⟨S_, .i32⟩
  | .hbm, ⟨19, _⟩ => ⟨S120, .i32⟩
  | .hbm, ⟨20, _⟩ => ⟨S120, .i1⟩
  | .hbm, ⟨21, _⟩ => ⟨S_, .i32⟩
  | .hbm, ⟨22, _⟩ => ⟨S120, .i32⟩
  | .hbm, ⟨23, _⟩ => ⟨S120, .i32⟩
  | .hbm, ⟨24, _⟩ => ⟨S120, .i32⟩
  | .hbm, ⟨25, _⟩ => ⟨S120x1, .i32⟩
  | .hbm, ⟨26, _⟩ => ⟨S1024x120x128, .f32⟩
  | .hbm, ⟨27, _⟩ => ⟨S1024x120x256, .f32⟩
  | .hbm, ⟨28, _⟩ => ⟨S1024x120x128, .f32⟩
  | .hbm, ⟨29, _⟩ => ⟨S1x1x128, .f32⟩
  | .hbm, ⟨30, _⟩ => ⟨S1024x120x128, .f32⟩
  | .hbm, ⟨31, _⟩ => ⟨S1024x120x128, .f32⟩
  | .hbm, ⟨32, _⟩ => ⟨S_, .f32⟩
  | .hbm, ⟨33, _⟩ => ⟨S1024x120x128, .f32⟩
  | .hbm, ⟨34, _⟩ => ⟨S1024x120x128, .f32⟩
  | .hbm, ⟨35, _⟩ => ⟨S1024x120x128, .f32⟩
  | .hbm, ⟨36, _⟩ => ⟨S1x1x128, .f32⟩
  | .hbm, ⟨37, _⟩ => ⟨S1024x120x128, .f32⟩
  | .hbm, ⟨38, _⟩ => ⟨S1024x120x128, .f32⟩
  | .hbm, ⟨39, _⟩ => ⟨S_, .f32⟩
  | .hbm, ⟨40, _⟩ => ⟨S1024x120x128, .f32⟩
  | .hbm, ⟨41, _⟩ => ⟨S1024x120x128, .f32⟩
  | .hbm, ⟨42, _⟩ => ⟨S1024x120x128, .f32⟩
  | .hbm, ⟨43, _⟩ => ⟨S1x1x128, .f32⟩
  | .hbm, ⟨44, _⟩ => ⟨S1024x120x128, .f32⟩
  | .hbm, ⟨45, _⟩ => ⟨S1024x120x128, .f32⟩
  | .hbm, ⟨46, _⟩ => ⟨S_, .f32⟩
  | .hbm, ⟨47, _⟩ => ⟨S1024x120x128, .f32⟩
  | .hbm, ⟨48, _⟩ => ⟨S1024x120x128, .f32⟩
  | .hbm, ⟨49, _⟩ => ⟨S_, .f32⟩
  | .hbm, ⟨50, _⟩ => ⟨S1024x128, .f32⟩
  | .hbm, ⟨51, _⟩ => ⟨S_, .f32⟩
  | .hbm, ⟨52, _⟩ => ⟨S1024x128, .f32⟩
  | .hbm, ⟨53, _⟩ => ⟨S1024x128, .f32⟩
  | _, _ => ⟨S1024x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call2_cst : Ref sig .tc := ⟨.hbm, 46, rfl⟩
abbrev main_call2_v0 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  bcast_S_S120 : S_.BroadcastsInDim S120 (![] : Fin 0 → Fin S120.rank)
  bcast_S120_S120x1_0 : S120.BroadcastsInDim S120x1 (![0] : Fin 1 → Fin S120x1.rank)
  concatenates_S1024x120x128_S1024x120x128_S1024x120x256_d2 : Shape.Concatenates [S1024x120x128, S1024x120x128] S1024x120x256 2
  bcast_S128_S1x1x128_2 : S128.BroadcastsInDim S1x1x128 (![2] : Fin 1 → Fin S1x1x128.rank)
  bcast_S1x1x128_S1024x120x128_0_1_2 : S1x1x128.BroadcastsInDim S1024x120x128 (![0, 1, 2] : Fin 3 → Fin S1024x120x128.rank)
  bcast_S_S1024x120x128 : S_.BroadcastsInDim S1024x120x128 (![] : Fin 0 → Fin S1024x120x128.rank)
  reducesTo_S1024x120x128_S1024x128_d1 : S1024x120x128.ReducesTo [1] S1024x128
  h_S_ : 0 < S_.numel
  bcast_S_S1024x128 : S_.BroadcastsInDim S1024x128 (![] : Fin 0 → Fin S1024x128.rank)
  gather_S1024x16x128_S120x1_S1024x120x128_02_1_n_n_1_1_10241128_wf : GatherDims.WF S1024x16x128 S120x1 S1024x120x128 [0, 2] [1] [] [1] [] 1 ![1024, 1, 128]
  dot_S1024x120x256_S256x128_S1024x120x128_2_0_01_1_n_n_wf : DotDims.WF S1024x120x256 S256x128 S1024x120x128 [2] [0] [0, 1] [1] [] []
  dot_S1024x120x128_S128x128_S1024x120x128_2_0_01_1_n_n_wf : DotDims.WF S1024x120x128 S128x128 S1024x120x128 [2] [0] [0, 1] [1] [] []

variable [Facts₀]

def gather_S1024x16x128_S120x1_S1024x120x128_02_1_n_n_1_1_10241128 : GatherDims S1024x16x128 S120x1 S1024x120x128 where
  offsetDims := [0, 2]
  collapsedSliceDims := [1]
  operandBatchingDims := []
  startIndicesBatchingDims := []
  startIndexMap := [1]
  indexVectorDim := 1
  sliceSizes := ![1024, 1, 128]
  wf := gather_S1024x16x128_S120x1_S1024x120x128_02_1_n_n_1_1_10241128_wf
def dot_S1024x120x256_S256x128_S1024x120x128_2_0_01_1_n_n : DotDims S1024x120x256 S256x128 S1024x120x128 where
  lhsContracting := [2]
  rhsContracting := [0]
  lhsNonContracting := [0, 1]
  rhsNonContracting := [1]
  lhsBatch := []
  rhsBatch := []
  wf := dot_S1024x120x256_S256x128_S1024x120x128_2_0_01_1_n_n_wf
def dot_S1024x120x128_S128x128_S1024x120x128_2_0_01_1_n_n : DotDims S1024x120x128 S128x128 S1024x120x128 where
  lhsContracting := [2]
  rhsContracting := [0]
  lhsNonContracting := [0, 1]
  rhsNonContracting := [1]
  lhsBatch := []
  rhsBatch := []
  wf := dot_S1024x120x128_S128x128_S1024x120x128_2_0_01_1_n_n_wf

class Facts : Prop extends Facts₀ where

variable [Facts]
-- ==== Proof.Spec.lean ====
/-
  The pairwise relation network as one function of its argument arrays, over the extended reals.

  A sample `b` carries 16 channels of 128 features. For each of 120 pairs `p` the two channels `ii p` and `jj p`
  are concatenated into 256 features and sent through three affine layers, each followed by `max · 0`; the result
  is the mean of the third layer over the 120 pairs. The first layer's 256-term sum is written as its two 128-term
  halves (the rows of the first weight matrix below and from row 128 on), which is how both programs are compared:
  one program sums the 256 products of the concatenated features, the other adds the bias to the first half before
  it adds the second half.
-/
import Idealize.ShloMosaic.PureOps.Ideal
import Idealize.ShloMosaic.Lib.ValueIdx

noncomputable section

namespace Cert.PairNet

open Idealize.ShloMosaic Idealize.ShloMosaic.ValueIdx

abbrev SX : Shape := ⟨3, ![1024, 16, 128]⟩
abbrev SW1 : Shape := ⟨2, ![256, 128]⟩
abbrev SV : Shape := ⟨1, ![128]⟩
abbrev SW : Shape := ⟨2, ![128, 128]⟩
abbrev SO : Shape := ⟨2, ![1024, 128]⟩

/-- The zero both programs take the maximum against and start their sums from, as its printed word. -/
abbrev zero : EReal := Ideal.ofBits .f32 0x00000000#32
/-- The number of pairs, 120, as its printed word: the divisor of the mean. -/
abbrev npairs : EReal := Ideal.ofBits .f32 0x42F00000#32

/-- `max · 0`. -/
def relu (a : EReal) : EReal := max a zero

/-- Row `f` of the upper half of the first weight matrix. -/
def lo (f : Fin 128) : Fin 256 := ⟨f.val, by omega⟩
/-- Row `f` of the lower half of the first weight matrix (row `128 + f`). -/
def hi (f : Fin 128) : Fin 256 := ⟨128 + f.val, by omega⟩

variable (X : SX.Idx → EReal) (W1 : SW1.Idx → EReal) (B1 : SV.Idx → EReal) (W2 : SW.Idx → EReal) (B2 : SV.Idx → EReal)
  (W3 : SW.Idx → EReal) (B3 : SV.Idx → EReal) (ii jj : Fin 120 → Fin 16)

/-- Channel `c` of sample `b` through the upper half of the first weight matrix, at hidden unit `k`. -/
def upper (b : Fin 1024) (c : Fin 16) (k : Fin 128) : EReal := ∑ f : Fin 128, X (ix3 b c f) * W1 (ix2 (lo f) k)
/-- Channel `c` of sample `b` through the lower half of the first weight matrix, at hidden unit `k`. -/
def lower (b : Fin 1024) (c : Fin 16) (k : Fin 128) : EReal := ∑ f : Fin 128, X (ix3 b c f) * W1 (ix2 (hi f) k)

/-- The first layer before its activation, for sample `b`, pair `p`, hidden unit `k`. -/
def pre1 (b : Fin 1024) (p : Fin 120) (k : Fin 128) : EReal :=
  upper X W1 b (ii p) k + lower X W1 b (jj p) k + B1 (ix1 k)

/-- The first layer. -/
def act1 (b : Fin 1024) (p : Fin 120) (k : Fin 128) : EReal := relu (pre1 X W1 B1 ii jj b p k)

/-- One affine layer of width 128 followed by `max · 0`. -/
def dense (W : SW.Idx → EReal) (B : SV.Idx → EReal) (h : Fin 128 → EReal) (k : Fin 128) : EReal :=
  relu ((∑ f : Fin 128, h f * W (ix2 f k)) + B (ix1 k))

/-- The second layer. -/
def act2 (b : Fin 1024) (p : Fin 120) : Fin 128 → EReal := dense W2 B2 (act1 X W1 B1 ii jj b p)
/-- The third layer. -/
def act3 (b : Fin 1024) (p : Fin 120) : Fin 128 → EReal := dense W3 B3 (act2 X W1 B1 W2 B2 ii jj b p)

/-- The network's result: the mean over the pairs of the third layer, at sample `i 0` and output unit `i 1`. -/
def out : SO.Idx → EReal := fun i =>
  Ideal.div (∑ p : Fin 120, act3 X W1 B1 W2 B2 W3 B3 ii jj (i 0) p (i 1)) npairs

end Cert.PairNet

end
-- ==== Proof.KShape.lean ====
/-
  The network as the kernel arranges it on one block of 128 samples.

  The kernel never forms a pair's 256 concatenated features. Per sample it sends each of the 16 channels through
  the left and the right half of the merged first weight matrix (its 256 columns: the upper half of the first
  weight matrix beside its lower half), which gives 32 rows of 128 hidden units — rows 0 to 15 carry the bias —
  and a pair's first layer is a 120 by 32 selection matrix times those rows. The later layers and the mean are
  the network's own. Here that arrangement is written over ANY selection matrix and merged weight; that a
  selection matrix of two one-hot halves picks the pair's two rows is the bridge's business.
-/
import proofs.«404360_j20074677141790_3_alg».proof.Proof.Spec

noncomputable section

namespace Cert.PairNet

open Idealize.ShloMosaic Idealize.ShloMosaic.ValueIdx

abbrev SXb : Shape := ⟨3, ![128, 16, 128]⟩
abbrev SWm : Shape := ⟨2, ![128, 256]⟩
abbrev SSel : Shape := ⟨2, ![120, 32]⟩
abbrev SOb : Shape := ⟨2, ![128, 128]⟩

variable (x : SXb.Idx → EReal) (w : SWm.Idx → EReal) (b1 : SV.Idx → EReal) (s : SSel.Idx → EReal)
  (w2 : SW.Idx → EReal) (b2 : SV.Idx → EReal) (w3 : SW.Idx → EReal) (b3 : SV.Idx → EReal)

/-- The 32 rows the selection matrix multiplies, for sample `r` of the block: row `c < 16` is channel `c` through the
    left half of the merged weight plus the bias, row `16 + c` is channel `c` through the right half. -/
def rows (r : Fin 128) (c : Fin 32) (k : Fin 128) : EReal :=
  if h : c.val < 16 then (∑ f : Fin 128, x (ix3 r ⟨c.val, h⟩ f) * w (ix2 f (lo k))) + b1 (ix1 k)
  else ∑ f : Fin 128, x (ix3 r ⟨c.val - 16, by omega⟩ f) * w (ix2 f (hi k))

/-- The first layer before its activation, as the selection matrix's row `p` times the 32 rows. -/
def kpre1 (r : Fin 128) (p : Fin 120) (k : Fin 128) : EReal := ∑ c : Fin 32, s (ix2 p c) * rows x w b1 r c k

/-- The block's result: the mean over the pairs of the third layer. -/
def kout : SOb.Idx → EReal := fun y =>
  Ideal.div (∑ p : Fin 120, dense w3 b3 (dense w2 b2 (fun k => relu (kpre1 x w b1 s (y 0) p k))) (y 1)) npairs

/-- One entry of a one-hot row: `1` where the word names column `c`, else `0`. -/
def onehot (v : BitVec 32) (c : Fin 16) : EReal := if v = BitVec.ofNat 32 c.val then 1 else 0

end Cert.PairNet

end
-- ==== Proof.KPay.lean ====
/-
  The kernel body's arithmetic at one index of the output block, at the ideal values: the stored value at row `r`,
  column `h` of the block is the block network `PairNet.kout` of the eight loaded blocks.
-/
import proofs.«404360_j20074677141790_3_alg».proof.Proof.Gen.KernelIdeal.Skeleton
import proofs.«404360_j20074677141790_3_alg».proof.Proof.KShape
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The three contractions read at an index

Each dot's operand indices at an output index and a contraction coordinate, one axis at a time, and then the dot
into a zero accumulator as the sum over the contraction coordinate of the operands' products. -/

/-- The first layer's merged dot: [2048,128] times [128,256]. -/
private abbrev D1 := dot_S2048x128_S128x256_S2048x256_1_0_0_1_n_n
/-- The selection dot, batched over the sample: [128,120,32] times [128,32,128]. -/
private abbrev D2 := dot_S128x120x32_S128x32x128_S128x120x128_2_1_1_2_0_0
/-- The later layers' dot: [15360,128] times [128,128]. -/
private abbrev D3 := dot_S15360x128_S128x128_S15360x128_1_0_0_1_n_n

private theorem d1_lhs0 (i : S2048x256.Idx) (q : D1.contr.Idx) : (D1.lhsIdx i q 0).val = (i 0).val := by
  unfold DotDims.lhsIdx
  rw [dif_neg (show ¬(0 : Fin S2048x128.rank) ∈ D1.lhsBatch by decide), dif_pos (show (0 : Fin S2048x128.rank) ∈ D1.lhsNonContracting by decide)]
  rfl
private theorem d1_lhs1 (i : S2048x256.Idx) (q : D1.contr.Idx) : (D1.lhsIdx i q 1).val = (q ⟨0, by decide⟩).val :=
  D1.lhsIdx_val_of_single rfl i q
private theorem d1_rhs0 (i : S2048x256.Idx) (q : D1.contr.Idx) : (D1.rhsIdx i q 0).val = (q ⟨0, by decide⟩).val :=
  D1.rhsIdx_val_of_single rfl i q
private theorem d1_rhs1 (i : S2048x256.Idx) (q : D1.contr.Idx) : (D1.rhsIdx i q 1).val = (i 1).val := by
  unfold DotDims.rhsIdx
  rw [dif_neg (show ¬(1 : Fin S128x256.rank) ∈ D1.rhsBatch by decide), dif_pos (show (1 : Fin S128x256.rank) ∈ D1.rhsNonContracting by decide)]
  rfl

/-- Entry (q, k) of the merged dot is the sum over the 128 features of row q times column k. -/
theorem mm1_apply (a : FVec Ideal S2048x128 .bf16) (b : FVec Ideal S128x256 .bf16) (q : Fin 2048) (k : Fin 256) :
    matmul D1 none a b (constant S2048x256 .f32 0x00000000#32) (ix2 q k) = ∑ f : Fin 128, a (ix2 q f) * b (ix2 f k) := by
  simp only [matmul]
  rw [Ideal.matmul_constant_zero_apply, ← Equiv.sum_comp (contrEquiv1 D1 128 rfl rfl).symm]
  refine Finset.sum_congr rfl fun f _ => ?_
  have hk := contrEquiv1_symm_val D1 128 rfl rfl f
  have el : D1.lhsIdx (ix2 q k) ((contrEquiv1 D1 128 rfl rfl).symm f) = ix2 q f := funext fun a => Fin.ext (by
    match a with
    | ⟨0, _⟩ => exact d1_lhs0 _ _
    | ⟨1, _⟩ => exact (d1_lhs1 _ _).trans hk)
  have er : D1.rhsIdx (ix2 q k) ((contrEquiv1 D1 128 rfl rfl).symm f) = ix2 f k := funext fun a => Fin.ext (by
    match a with
    | ⟨0, _⟩ => exact (d1_rhs0 _ _).trans hk
    | ⟨1, _⟩ => exact d1_rhs1 _ _)
  rw [el, er]

private theorem d3_lhs0 (i : S15360x128.Idx) (q : D3.contr.Idx) : (D3.lhsIdx i q 0).val = (i 0).val := by
  unfold DotDims.lhsIdx
  rw [dif_neg (show ¬(0 : Fin S15360x128.rank) ∈ D3.lhsBatch by decide), dif_pos (show (0 : Fin S15360x128.rank) ∈ D3.lhsNonContracting by decide)]
  rfl
private theorem d3_lhs1 (i : S15360x128.Idx) (q : D3.contr.Idx) : (D3.lhsIdx i q 1).val = (q ⟨0, by decide⟩).val :=
  D3.lhsIdx_val_of_single rfl i q
private theorem d3_rhs0 (i : S15360x128.Idx) (q : D3.contr.Idx) : (D3.rhsIdx i q 0).val = (q ⟨0, by decide⟩).val :=
  D3.rhsIdx_val_of_single rfl i q
private theorem d3_rhs1 (i : S15360x128.Idx) (q : D3.contr.Idx) : (D3.rhsIdx i q 1).val = (i 1).val := by
  unfold DotDims.rhsIdx
  rw [dif_neg (show ¬(1 : Fin S128x128.rank) ∈ D3.rhsBatch by decide), dif_pos (show (1 : Fin S128x128.rank) ∈ D3.rhsNonContracting by decide)]
  rfl

/-- Entry (q, k) of a later layer's dot is the sum over the 128 hidden units of row q times column k. -/
theorem mm3_apply (a : FVec Ideal S15360x128 .bf16) (b : FVec Ideal S128x128 .bf16) (q : Fin 15360) (k : Fin 128) :
    matmul D3 none a b (constant S15360x128 .f32 0x00000000#32) (ix2 q k) = ∑ f : Fin 128, a (ix2 q f) * b (ix2 f k) := by
  simp only [matmul]
  rw [Ideal.matmul_constant_zero_apply, ← Equiv.sum_comp (contrEquiv1 D3 128 rfl rfl).symm]
  refine Finset.sum_congr rfl fun f _ => ?_
  have hk := contrEquiv1_symm_val D3 128 rfl rfl f
  have el : D3.lhsIdx (ix2 q k) ((contrEquiv1 D3 128 rfl rfl).symm f) = ix2 q f := funext fun a => Fin.ext (by
    match a with
    | ⟨0, _⟩ => exact d3_lhs0 _ _
    | ⟨1, _⟩ => exact (d3_lhs1 _ _).trans hk)
  have er : D3.rhsIdx (ix2 q k) ((contrEquiv1 D3 128 rfl rfl).symm f) = ix2 f k := funext fun a => Fin.ext (by
    match a with
    | ⟨0, _⟩ => exact (d3_rhs0 _ _).trans hk
    | ⟨1, _⟩ => exact d3_rhs1 _ _)
  rw [el, er]

private theorem d2_lhs0 (i : S128x120x128.Idx) (q : D2.contr.Idx) : (D2.lhsIdx i q 0).val = (i 0).val := by
  unfold DotDims.lhsIdx
  rw [dif_pos (show (0 : Fin S128x120x32.rank) ∈ D2.lhsBatch by decide)]
  rfl
private theorem d2_lhs1 (i : S128x120x128.Idx) (q : D2.contr.Idx) : (D2.lhsIdx i q 1).val = (i 1).val := by
  unfold DotDims.lhsIdx
  rw [dif_neg (show ¬(1 : Fin S128x120x32.rank) ∈ D2.lhsBatch by decide), dif_pos (show (1 : Fin S128x120x32.rank) ∈ D2.lhsNonContracting by decide)]
  rfl
private theorem d2_lhs2 (i : S128x120x128.Idx) (q : D2.contr.Idx) : (D2.lhsIdx i q 2).val = (q ⟨0, by decide⟩).val :=
  D2.lhsIdx_val_of_single rfl i q
private theorem d2_rhs0 (i : S128x120x128.Idx) (q : D2.contr.Idx) : (D2.rhsIdx i q 0).val = (i 0).val := by
  unfold DotDims.rhsIdx
  rw [dif_pos (show (0 : Fin S128x32x128.rank) ∈ D2.rhsBatch by decide)]
  rfl
private theorem d2_rhs1 (i : S128x120x128.Idx) (q : D2.contr.Idx) : (D2.rhsIdx i q 1).val = (q ⟨0, by decide⟩).val :=
  D2.rhsIdx_val_of_single rfl i q
private theorem d2_rhs2 (i : S128x120x128.Idx) (q : D2.contr.Idx) : (D2.rhsIdx i q 2).val = (i 2).val := by
  unfold DotDims.rhsIdx
  rw [dif_neg (show ¬(2 : Fin S128x32x128.rank) ∈ D2.rhsBatch by decide), dif_pos (show (2 : Fin S128x32x128.rank) ∈ D2.rhsNonContracting by decide)]
  rfl

/-- Entry (r, p, k) of the batched dot is, within sample r, the sum over the 32 rows of selection row p times column k. -/
theorem mm2_apply (a : FVec Ideal S128x120x32 .bf16) (b : FVec Ideal S128x32x128 .bf16) (r : Fin 128) (p : Fin 120) (k : Fin 128) :
    matmul D2 none a b (constant S128x120x128 .f32 0x00000000#32) (ix3 r p k) = ∑ c : Fin 32, a (ix3 r p c) * b (ix3 r c k) := by
  simp only [matmul]
  rw [Ideal.matmul_constant_zero_apply, ← Equiv.sum_comp (contrEquiv1 D2 32 rfl rfl).symm]
  refine Finset.sum_congr rfl fun c _ => ?_
  have hk := contrEquiv1_symm_val D2 32 rfl rfl c
  have el : D2.lhsIdx (ix3 r p k) ((contrEquiv1 D2 32 rfl rfl).symm c) = ix3 r p c := funext fun a => Fin.ext (by
    match a with
    | ⟨0, _⟩ => exact d2_lhs0 _ _
    | ⟨1, _⟩ => exact d2_lhs1 _ _
    | ⟨2, _⟩ => exact (d2_lhs2 _ _).trans hk)
  have er : D2.rhsIdx (ix3 r p k) ((contrEquiv1 D2 32 rfl rfl).symm c) = ix3 r c k := funext fun a => Fin.ext (by
    match a with
    | ⟨0, _⟩ => exact d2_rhs0 _ _
    | ⟨1, _⟩ => exact (d2_rhs1 _ _).trans hk
    | ⟨2, _⟩ => exact d2_rhs2 _ _)
  rw [el, er]

/-! ## The layout operations read at an index -/

section Layout
variable {α : Type}

/-- A shape cast between equal shapes reads the same index. -/
theorem shapeCast_same {s : Shape} (x : s.Idx → α) (hs : s.ShapeCasts s) (j : s.Idx) : shapeCast s x hs j = x j :=
  shapeCast_apply x hs j j rfl

/-- [128,16,128] read as [2048,128]: row `r * 16 + c` is channel `c` of sample `r`. -/
theorem sc_x_apply (x : S128x16x128.Idx → α) (hs : S128x16x128.ShapeCasts S2048x128) (r : Fin 128) (c : Fin 16) (f : Fin 128) :
    shapeCast S2048x128 x hs (ix2 ⟨r.val * 16 + c.val, by have := r.isLt; have := c.isLt; omega⟩ f) = x (ix3 r c f) := by
  refine shapeCast_apply x hs _ _ ?_
  rw [Shape.rowMajor_val_three, Shape.rowMajor_val_two]
  rfl

/-- [2048,128] read as [128,16,128]: channel `c` of sample `r` is row `r * 16 + c`. -/
theorem sc_rows_apply (x : S2048x128.Idx → α) (hs : S2048x128.ShapeCasts S128x16x128) (r : Fin 128) (c : Fin 16) (g : Fin 128) :
    shapeCast S128x16x128 x hs (ix3 r c g) = x (ix2 ⟨r.val * 16 + c.val, by have := r.isLt; have := c.isLt; omega⟩ g) := by
  refine shapeCast_apply x hs _ _ ?_
  rw [Shape.rowMajor_val_three, Shape.rowMajor_val_two]
  rfl

/-- [128,120,128] read as [15360,128]: row `r * 120 + p` is pair `p` of sample `r`. -/
theorem sc_pairs_apply (x : S128x120x128.Idx → α) (hs : S128x120x128.ShapeCasts S15360x128) (r : Fin 128) (p : Fin 120) (g : Fin 128) :
    shapeCast S15360x128 x hs (ix2 ⟨r.val * 120 + p.val, by have := r.isLt; have := p.isLt; omega⟩ g) = x (ix3 r p g) := by
  refine shapeCast_apply x hs _ _ ?_
  rw [Shape.rowMajor_val_three, Shape.rowMajor_val_two]
  rfl

/-- [15360,128] read as [128,120,128]: pair `p` of sample `r` is row `r * 120 + p`. -/
theorem sc_unpairs_apply (x : S15360x128.Idx → α) (hs : S15360x128.ShapeCasts S128x120x128) (r : Fin 128) (p : Fin 120) (g : Fin 128) :
    shapeCast S128x120x128 x hs (ix3 r p g) = x (ix2 ⟨r.val * 120 + p.val, by have := r.isLt; have := p.isLt; omega⟩ g) := by
  refine shapeCast_apply x hs _ _ ?_
  rw [Shape.rowMajor_val_three, Shape.rowMajor_val_two]
  rfl

/-- A bias of 128 entries, as one row broadcast down `n` rows, reads its entry at the column. -/
theorem bias_apply {n : Nat} (b : S128.Idx → α) (h1 : S128.ShapeCasts S1x128) (h2 : S1x128.Broadcasts ⟨2, ![n, 128]⟩)
    (q : Fin n) (k : Fin 128) :
    broadcastTo ⟨2, ![n, 128]⟩ (shapeCast S1x128 b h1) h2 (ix2 q k) = b (ix1 k) := by
  refine (broadcastTo_apply _ h2 (ix2 q k) (ix2 (0 : Fin 1) k) fun a => ?_).trans ?_
  · match a with
    | ⟨0, _⟩ => rfl
    | ⟨1, _⟩ => rfl
  · refine shapeCast_apply b h1 _ _ ?_
    rw [Shape.rowMajor_val_one, Shape.rowMajor_val_two]
    show k.val = 0 * 128 + k.val
    omega

/-- The selection block broadcast over the samples reads its own entry, whatever the sample. -/
theorem sel_apply (s : S120x32.Idx → α) (h1 : S120x32.ShapeCasts S120x32) (h2 : S120x32.ShapeCasts S1x120x32)
    (h3 : S1x120x32.ShapeCasts S1x120x32) (h4 : S1x120x32.Broadcasts S128x120x32) (r : Fin 128) (p : Fin 120) (c : Fin 32) :
    broadcastTo S128x120x32 (shapeCast S1x120x32 (shapeCast S1x120x32 (shapeCast S120x32 s h1) h2) h3) h4 (ix3 r p c)
      = s (ix2 p c) := by
  refine (broadcastTo_apply _ h4 (ix3 r p c) (ix3 (0 : Fin 1) p c) fun a => ?_).trans ?_
  · match a with
    | ⟨0, _⟩ => rfl
    | ⟨1, _⟩ => rfl
    | ⟨2, _⟩ => rfl
  refine (shapeCast_same _ h3 _).trans ?_
  refine (shapeCast_apply _ h2 (ix3 (0 : Fin 1) p c) (ix2 p c) ?_).trans (shapeCast_same _ h1 _)
  rw [Shape.rowMajor_val_two, Shape.rowMajor_val_three]
  show p.val * 32 + c.val = (0 * 120 + p.val) * 32 + c.val
  omega

/-- The left 128 columns of the merged dot's result. -/
theorem slice_lo_apply (m : S2048x256.Idx → α) (hs : S2048x256.Slices ![0, 0] S2048x128) (q : Fin 2048) (g : Fin 128) :
    extractStridedSlice S2048x128 ![0, 0] m hs (ix2 q g) = m (ix2 q (PairNet.lo g)) := by
  refine extractStridedSlice_apply _ m hs _ _ fun a => ?_
  match a with
  | ⟨0, _⟩ => show q.val = 0 + q.val; omega
  | ⟨1, _⟩ => show g.val = 0 + g.val; omega

/-- The right 128 columns of the merged dot's result. -/
theorem slice_hi_apply (m : S2048x256.Idx → α) (hs : S2048x256.Slices ![0, 128] S2048x128) (q : Fin 2048) (g : Fin 128) :
    extractStridedSlice S2048x128 ![0, 128] m hs (ix2 q g) = m (ix2 q (PairNet.hi g)) := by
  refine extractStridedSlice_apply _ m hs _ _ fun a => ?_
  match a with
  | ⟨0, _⟩ => show q.val = 0 + q.val; omega
  | ⟨1, _⟩ => show 128 + g.val = 128 + g.val; rfl

/-- The 32 rows: a row below 16 is the first piece's. -/
theorem cat_lo_apply (x₁ x₂ : S128x16x128.Idx → α) (hc : Shape.Concatenates [S128x16x128, S128x16x128] S128x32x128 1)
    (r : Fin 128) (c : Fin 32) (g : Fin 128) (hlt : c.val < 16) :
    concatenate S128x32x128 1 [⟨S128x16x128, x₁⟩, ⟨S128x16x128, x₂⟩] hc (ix3 r c g) = x₁ (ix3 r ⟨c.val, hlt⟩ g) := by
  refine concatenate_pair_apply_left 1 x₁ x₂ hc (ix3 r c g) rfl _ fun b => ?_
  match b with
  | ⟨0, _⟩ => rfl
  | ⟨1, _⟩ => rfl
  | ⟨2, _⟩ => rfl

/-- The 32 rows: row `16 + c` is the second piece's row `c`. -/
theorem cat_hi_apply (x₁ x₂ : S128x16x128.Idx → α) (hc : Shape.Concatenates [S128x16x128, S128x16x128] S128x32x128 1)
    (r : Fin 128) (c : Fin 32) (g : Fin 128) (hge : ¬ c.val < 16) :
    concatenate S128x32x128 1 [⟨S128x16x128, x₁⟩, ⟨S128x16x128, x₂⟩] hc (ix3 r c g)
      = x₂ (ix3 r ⟨c.val - 16, by have := c.isLt; omega⟩ g) := by
  refine concatenate_pair_apply_right 1 x₁ x₂ hc (ix3 r c g) rfl rfl _ (fun b hb => ?_) ?_
  · match b with
    | ⟨0, _⟩ => rfl
    | ⟨1, _⟩ => exact absurd rfl hb
    | ⟨2, _⟩ => rfl
  · show c.val - 16 + 16 = c.val
    omega

end Layout

/-- The sum over the pair axis of a [128,120,128] block, read at sample `r` and unit `h`. -/
theorem red_apply (v : FVec Ideal S128x120x128 .f32) (hr : S128x120x128.Reduces [1] S128x128) (hφ : FKind.Formats FTy.f32)
    (hacc : (0x00000000#32 : BitVec FTy.f32.bits) = FKind.add.neutral FTy.f32 hφ) (r h : Fin 128) :
    multiReduction .add [1] S128x128 v 0x00000000#32 hr hφ hacc (ix2 r h) = ∑ p : Fin 120, v (ix3 r p h) := by
  refine (Ideal.multiReduction_add_single v _ hr hφ hacc (ix2 r h)).trans ?_
  refine Finset.sum_congr rfl fun p _ => congrArg v (funext fun a => Fin.ext ?_)
  match a with
  | ⟨0, _⟩ => rfl
  | ⟨1, _⟩ => rfl
  | ⟨2, _⟩ => rfl

/-! ## The stages of the block network -/

/-- The 32 rows the selection block multiplies, out of the kernel's operations: the merged dot of the block read as
    2048 rows, its left columns plus the bias and its right columns, each read back per sample and joined. -/
theorem rows_apply (x0 : FVec Ideal S128x16x128 .f32) (x1 : FVec Ideal S128x256 .bf16) (x2 : FVec Ideal S128 .f32)
    (ht : FTy.bits .bf16 < FTy.bits .f32) (hx : S128x16x128.ShapeCasts S2048x128) (hw : S128x256.ShapeCasts S128x256)
    (hlo : S2048x256.Slices ![0, 0] S2048x128) (hhi : S2048x256.Slices ![0, 128] S2048x128)
    (h1 : S128.ShapeCasts S1x128) (h2 : S1x128.Broadcasts S2048x128) (hb : S2048x128.ShapeCasts S128x16x128)
    (hc : Shape.Concatenates [S128x16x128, S128x16x128] S128x32x128 1) (r : Fin 128) (c : Fin 32) (g : Fin 128) :
    concatenate S128x32x128 1
        [⟨S128x16x128, shapeCast S128x16x128 (truncf .bf16 (addf
            (extractStridedSlice S2048x128 ![0, 0]
              (matmul D1 none (shapeCast S2048x128 (truncf .bf16 x0 ht) hx) (shapeCast S128x256 x1 hw)
                (constant S2048x256 .f32 0x00000000#32)) hlo)
            (broadcastTo S2048x128 (shapeCast S1x128 x2 h1) h2)) ht) hb⟩,
         ⟨S128x16x128, shapeCast S128x16x128 (truncf .bf16
            (extractStridedSlice S2048x128 ![0, 128]
              (matmul D1 none (shapeCast S2048x128 (truncf .bf16 x0 ht) hx) (shapeCast S128x256 x1 hw)
                (constant S2048x256 .f32 0x00000000#32)) hhi) ht) hb⟩] hc (ix3 r c g)
      = PairNet.rows x0 x1 x2 r c g := by
  unfold PairNet.rows
  by_cases hlt : c.val < 16
  · rw [dif_pos hlt]
    refine (cat_lo_apply _ _ hc r c g hlt).trans ?_
    refine (sc_rows_apply _ hb r ⟨c.val, hlt⟩ g).trans ?_
    refine (truncf_apply (ψ := .bf16) (φ := .f32) _ ht _).trans ?_
    refine (addf_apply _ _ _).trans (congrArg₂ (· + ·) ?_ (bias_apply x2 h1 h2 _ g))
    refine (slice_lo_apply _ hlo _ g).trans ?_
    refine (mm1_apply _ _ _ _).trans (Finset.sum_congr rfl fun f _ => congrArg₂ (· * ·) ?_ (shapeCast_same x1 hw _))
    exact (sc_x_apply _ hx r ⟨c.val, hlt⟩ f).trans (truncf_apply (ψ := .bf16) (φ := .f32) x0 ht _)
  · rw [dif_neg hlt]
    refine (cat_hi_apply _ _ hc r c g hlt).trans ?_
    refine (sc_rows_apply _ hb r ⟨c.val - 16, by have := c.isLt; omega⟩ g).trans ?_
    refine (truncf_apply (ψ := .bf16) (φ := .f32) _ ht _).trans ?_
    refine (slice_hi_apply _ hhi _ g).trans ?_
    refine (mm1_apply _ _ _ _).trans (Finset.sum_congr rfl fun f _ => congrArg₂ (· * ·) ?_ (shapeCast_same x1 hw _))
    exact (sc_x_apply _ hx r ⟨c.val - 16, by have := c.isLt; omega⟩ f).trans (truncf_apply (ψ := .bf16) (φ := .f32) x0 ht _)

/-- One later layer at a row: the dot into a zero accumulator plus the broadcast bias, against the splat zero, is
    `PairNet.dense` of that row of the layer's input. -/
theorem dense_apply (a : FVec Ideal S15360x128 .bf16) (W : FVec Ideal S128x128 .bf16) (B : FVec Ideal S128 .f32)
    (hW : S128x128.ShapeCasts S128x128) (h1 : S128.ShapeCasts S1x128) (h2 : S1x128.Broadcasts S15360x128)
    (q : Fin 15360) (k : Fin 128) :
    maximumf (addf (matmul D3 none a (shapeCast S128x128 W hW) (constant S15360x128 .f32 0x00000000#32))
        (broadcastTo S15360x128 (shapeCast S1x128 B h1) h2))
        (broadcast S15360x128 (FloatOps.ofBits (F := Ideal) .f32 0x00000000#32)) (ix2 q k)
      = PairNet.dense W B (fun f => a (ix2 q f)) k := by
  refine (maximumf_apply _ _ _).trans ?_
  unfold PairNet.dense PairNet.relu
  refine congrArg₂ max ?_ rfl
  refine (addf_apply _ _ _).trans (congrArg₂ (· + ·) ?_ (bias_apply B h1 h2 q k))
  exact (mm3_apply a _ q k).trans (Finset.sum_congr rfl fun f _ => congrArg (a (ix2 q f) * ·) (shapeCast_same W hW _))

theorem pay_eq (x0 : Vec Ideal S128x16x128 .f32) (x1 : Vec Ideal S128x256 .bf16) (x2 : Vec Ideal S128 .f32)
    (x3 : Vec Ideal S120x32 .bf16) (x4 : Vec Ideal S128x128 .bf16) (x5 : Vec Ideal S128 .f32)
    (x6 : Vec Ideal S128x128 .bf16) (x7 : Vec Ideal S128 .f32) (r h : Fin 128) :
    k0_pay1 (F := Ideal) (k0_pay2 x0 x1 x2 x3 x4 x5 x6) x7 (ix2 r h)
      = Cert.PairNet.kout x0 x1 x2 x3 x4 x5 x6 x7 (ix2 r h) := by
  unfold k0_pay1 k0_pay2
  show _ = Ideal.div (∑ p : Fin 120, PairNet.dense x6 x7 (PairNet.dense x4 x5
      (fun k => PairNet.relu (PairNet.kpre1 x0 x1 x2 x3 r p k))) h) PairNet.npairs
  -- the mean: the quotient by the splat 120 of the sum over the pair axis
  refine (divf_apply _ _ _).trans (congrArg₂ Ideal.div ?_ rfl)
  refine (red_apply _ _ _ _ r h).trans (Finset.sum_congr rfl fun p _ => ?_)
  -- the third layer at row r * 120 + p
  refine (sc_unpairs_apply _ _ r p h).trans ?_
  refine (dense_apply _ x6 x7 _ _ _ _ h).trans ?_
  refine congrArg (fun a => PairNet.dense x6 x7 a h) (funext fun f => ?_)
  -- the second layer at the same row
  refine (truncf_apply (ψ := .bf16) (φ := .f32) _ bitsLt_bf16_f32 _).trans ?_
  refine (dense_apply _ x4 x5 _ _ _ _ f).trans ?_
  refine congrArg (fun a => PairNet.dense x4 x5 a f) (funext fun g => ?_)
  -- the first layer: the batched selection dot against the 32 rows
  refine (sc_pairs_apply _ _ r p g).trans ?_
  refine (truncf_apply (ψ := .bf16) (φ := .f32) _ bitsLt_bf16_f32 _).trans ?_
  refine (maximumf_apply _ _ _).trans ?_
  unfold PairNet.relu PairNet.kpre1
  refine congrArg₂ max ?_ rfl
  refine (mm2_apply _ _ r p g).trans (Finset.sum_congr rfl fun c _ => congrArg₂ (· * ·) ?_ ?_)
  · exact sel_apply x3 _ _ _ _ r p c
  · exact rows_apply x0 x1 x2 _ _ _ _ _ _ _ _ _ r c g

end Cert.KernelIdeal.Pay

end
-- ==== Proof.KHost.lean ====
/-
  What the kernel's host operations leave, at the ideal values, in the arrays the region stages: the merged first
  weight matrix (the upper half of the first weight matrix beside its lower half), the second and third weight
  matrices (a change of format: the identity), and the selection matrix (a one-hot row per index word, the first
  index array's beside the second's).
-/
import proofs.«404360_j20074677141790_3_alg».proof.Proof.Gen.KernelIdeal.Frame
import proofs.«404360_j20074677141790_3_alg».proof.Proof.KShape
import Idealize.ShloMosaic.Lib.Pipeline.Value
import Idealize.ShloMosaic.Lib.ValueIdx
import Idealize.ShloMosaic.Lib.StableHlo.Run
import Idealize.ShloMosaic.Lib.StableHlo.Predicate

noncomputable section

namespace Cert.KernelIdeal.HostVal

open Cert.KernelIdeal Cert.KernelIdeal.Gen Idealize.ShloMosaic Idealize.ShloMosaic.TcCoe Idealize.SL.Sem Idealize.ShloMosaic.ValueIdx

/-! ## One-hot rows -/

/-- The one-hot rows of 120 index words as the called function composes them: each word repeated along 16 columns,
    compared for equality with the column's number, the comparison's bit read as a number. -/
def hot (v : IVec S120 32) : FVec Ideal S120x16 .bf16 :=
  uitofp (F := Ideal) .bf16
    (cmpi .eq
      (broadcastInDim S120x16 ![0, 1] bcast_S120x1_S120x16_0_1 (broadcastInDim S120x1 ![0] bcast_S120_S120x1_0 v))
      (broadcastInDim S120x16 ![0, 1] bcast_S1x16_S120x16_0_1 (iotaInDim S1x16 32 1)))

/-- Row `p`, column `q` of the one-hot rows: `1` where word `p` names column `q`, else `0`. The two broadcasts read
    word `p`; the broadcast column numbers read `q`; a bit as a number is `1` or `0`. -/
theorem hot_apply (v : IVec S120 32) (p : Fin 120) (q : Fin 16) :
    hot v (ix2 p q) = Cert.PairNet.onehot (v (ix1 p)) q := by
  have ea : broadcastInDim S120x16 ![0, 1] bcast_S120x1_S120x16_0_1
      (broadcastInDim S120x1 ![0] bcast_S120_S120x1_0 v) (ix2 p q) = v (ix1 p) :=
    (broadcastInDim_apply _ _ _ (ix2 p q) (ix2 p (0 : Fin 1)) (fun a => match a with | ⟨0, _⟩ => rfl | ⟨1, _⟩ => rfl)).trans
      (broadcastInDim_apply _ _ v (ix2 p (0 : Fin 1)) (ix1 p) (fun a => match a with | ⟨0, _⟩ => rfl))
  have eb : broadcastInDim S120x16 ![0, 1] bcast_S1x16_S120x16_0_1 (iotaInDim S1x16 32 1) (ix2 p q)
      = BitVec.ofNat 32 q.val :=
    (broadcastInDim_apply _ _ _ (ix2 p q) (ix2 (0 : Fin 1) q) (fun a => match a with | ⟨0, _⟩ => rfl | ⟨1, _⟩ => rfl)).trans rfl
  show (((IntOp.cmpi .eq
      (broadcastInDim S120x16 ![0, 1] bcast_S120x1_S120x16_0_1 (broadcastInDim S120x1 ![0] bcast_S120_S120x1_0 v) (ix2 p q))
      (broadcastInDim S120x16 ![0, 1] bcast_S1x16_S120x16_0_1 (iotaInDim S1x16 32 1) (ix2 p q))).toNat : ℝ) : EReal) = _
  rw [ea, eb]
  unfold Cert.PairNet.onehot
  by_cases h : v (ix1 p) = BitVec.ofNat 32 q.val
  · rw [if_pos h, StableHlo.Predicate.cmpi_eq_iff.mpr h]
    show (((1 : ℕ) : ℝ) : EReal) = 1
    rw [Nat.cast_one, EReal.coe_one]
  · rw [if_neg h, eq_zero_of_ne_one (mt StableHlo.Predicate.cmpi_eq_iff.mp h)]
    show (((0 : ℕ) : ℝ) : EReal) = 0
    rw [Nat.cast_zero, EReal.coe_zero]

variable (m : (ℓ : Loc nD τ sig) → Buf (Elt Ideal) ℓ)

/-! ## The buffers as the operations compose them -/

/-- The merged first weight matrix: rows 0 to 127 of the first weight matrix beside its rows 128 to 255, in the
    narrower format. -/
theorem v3_term (c : Dev nD) : (V m c main_v3 : S128x256.Idx → EReal) =
    truncf (F := Ideal) .bf16
      (concatenate S128x256 1
        [⟨S128x128, extractStridedSlice S128x128 ![0, 0] (m ((c : Thread nD τ).loc main_arg1)) slices_S256x128_S128x128_0_0⟩,
          ⟨S128x128, extractStridedSlice S128x128 ![128, 0] (m ((c : Thread nD τ).loc main_arg1)) slices_S256x128_S128x128_128_0⟩]
        concatenates_S128x128_S128x128_S128x256_d1)
      bitsLt_bf16_f32 := by
  dsimp only [Gen.V]
  simp only [Gen.hostOps0, Gen.hostOps0_1, Gen.hostOps0_2, Gen.hostOps0_3, List.flatten_cons, List.flatten_nil,
    List.append_nil, List.cons_append, List.nil_append]
  after_results

/-- The second weight matrix in the narrower format. -/
theorem v4_term (c : Dev nD) : (V m c main_v4 : S128x128.Idx → EReal) =
    truncf (F := Ideal) .bf16 (m ((c : Thread nD τ).loc main_arg3)) bitsLt_bf16_f32 := by
  dsimp only [Gen.V]
  simp only [Gen.hostOps0, Gen.hostOps0_1, Gen.hostOps0_2, Gen.hostOps0_3, List.flatten_cons, List.flatten_nil,
    List.append_nil, List.cons_append, List.nil_append]
  after_results

/-- The third weight matrix in the narrower format. -/
theorem v5_term (c : Dev nD) : (V m c main_v5 : S128x128.Idx → EReal) =
    truncf (F := Ideal) .bf16 (m ((c : Thread nD τ).loc main_arg5)) bitsLt_bf16_f32 := by
  dsimp only [Gen.V]
  simp only [Gen.hostOps0, Gen.hostOps0_1, Gen.hostOps0_2, Gen.hostOps0_3, List.flatten_cons, List.flatten_nil,
    List.append_nil, List.cons_append, List.nil_append]
  after_results

set_option maxHeartbeats 2000000 in
/-- The selection matrix: the one-hot rows of the first index array beside those of the second. -/
theorem v8_term (c : Dev nD) : (V m c main_v8 : S120x32.Idx → EReal) =
    concatenate S120x32 1
      [⟨S120x16, hot (m ((c : Thread nD τ).loc main_arg7))⟩, ⟨S120x16, hot (m ((c : Thread nD τ).loc main_arg8))⟩]
      concatenates_S120x16_S120x16_S120x32_d1 := by
  dsimp only [Gen.V]
  simp only [Gen.hostOps0, Gen.hostOps0_1, Gen.hostOps0_2, Gen.hostOps0_3, List.flatten_cons, List.flatten_nil,
    List.append_nil, List.cons_append, List.nil_append]
  after_results
  rfl

/-! ## The buffers at an index -/

/-- Column `k` of the left half of the merged matrix is column `k` of the upper half of the first weight matrix: the
    change of format is the identity, the concatenation reads its first piece, the slice reads row `f`. -/
theorem merged_left (c : Dev nD) (f k : Fin 128) :
    V m c main_v3 (ix2 f (Cert.PairNet.lo k)) = m ((c : Thread nD τ).loc main_arg1) (ix2 (Cert.PairNet.lo f) k) := by
  refine (congrFun (v3_term m c) _).trans ?_
  refine (truncf_apply (φ := .f32) (ψ := .bf16) _ bitsLt_bf16_f32 _).trans ?_
  refine (concatenate_pair_apply_left (t := S128x256) (s₁ := S128x128) (s₂ := S128x128) 1 _ _ _ (ix2 f (Cert.PairNet.lo k)) rfl (ix2 f k)
    (fun b => match b with | ⟨0, _⟩ => rfl | ⟨1, _⟩ => rfl)).trans ?_
  exact extractStridedSlice_apply _ _ _ (ix2 f k) (ix2 (Cert.PairNet.lo f) k)
    (fun a => match a with | ⟨0, _⟩ => (Nat.zero_add _).symm | ⟨1, _⟩ => (Nat.zero_add _).symm)

/-- Column `128 + k` of the merged matrix is column `k` of the lower half of the first weight matrix: the
    concatenation reads its second piece, the slice reads row `128 + f`. -/
theorem merged_right (c : Dev nD) (f k : Fin 128) :
    V m c main_v3 (ix2 f (Cert.PairNet.hi k)) = m ((c : Thread nD τ).loc main_arg1) (ix2 (Cert.PairNet.hi f) k) := by
  refine (congrFun (v3_term m c) _).trans ?_
  refine (truncf_apply (φ := .f32) (ψ := .bf16) _ bitsLt_bf16_f32 _).trans ?_
  refine (concatenate_pair_apply_right (t := S128x256) (s₁ := S128x128) (s₂ := S128x128) 1 _ _ _ (ix2 f (Cert.PairNet.hi k)) rfl rfl (ix2 f k)
    (fun b => match b with | ⟨0, _⟩ => fun _ => rfl | ⟨1, _⟩ => fun h => absurd rfl h)
    (Nat.add_comm _ _)).trans ?_
  exact extractStridedSlice_apply _ _ _ (ix2 f k) (ix2 (Cert.PairNet.hi f) k)
    (fun a => match a with | ⟨0, _⟩ => rfl | ⟨1, _⟩ => (Nat.zero_add _).symm)

theorem w2_eq (c : Dev nD) (i : S128x128.Idx) : V m c main_v4 i = m ((c : Thread nD τ).loc main_arg3) i :=
  (congrFun (v4_term m c) i).trans (truncf_apply _ _ _)

theorem w3_eq (c : Dev nD) (i : S128x128.Idx) : V m c main_v5 i = m ((c : Thread nD τ).loc main_arg5) i :=
  (congrFun (v5_term m c) i).trans (truncf_apply _ _ _)

/-- Column `q` of the selection matrix is column `q` of the first index array's one-hot rows. -/
theorem sel_left (c : Dev nD) (p : Fin 120) (q : Fin 16) :
    V m c main_v8 (ix2 p (Fin.castAdd 16 q)) = Cert.PairNet.onehot (m ((c : Thread nD τ).loc main_arg7) (ix1 p)) q := by
  refine (congrFun (v8_term m c) _).trans ?_
  refine (concatenate_pair_apply_left (t := S120x32) (s₁ := S120x16) (s₂ := S120x16) 1 _ _ _ (ix2 p (Fin.castAdd 16 q)) rfl (ix2 p q)
    (fun b => match b with | ⟨0, _⟩ => rfl | ⟨1, _⟩ => rfl)).trans ?_
  exact hot_apply _ p q

/-- Column `16 + q` of the selection matrix is column `q` of the second index array's one-hot rows. -/
theorem sel_right (c : Dev nD) (p : Fin 120) (q : Fin 16) :
    V m c main_v8 (ix2 p (Fin.natAdd 16 q)) = Cert.PairNet.onehot (m ((c : Thread nD τ).loc main_arg8) (ix1 p)) q := by
  refine (congrFun (v8_term m c) _).trans ?_
  refine (concatenate_pair_apply_right (t := S120x32) (s₁ := S120x16) (s₂ := S120x16) 1 _ _ _ (ix2 p (Fin.natAdd 16 q)) rfl rfl (ix2 p q)
    (fun b => match b with | ⟨0, _⟩ => fun _ => rfl | ⟨1, _⟩ => fun h => absurd rfl h)
    (Nat.add_comm _ _)).trans ?_
  exact hot_apply _ p q

end Cert.KernelIdeal.HostVal

end
-- ==== Proof.Bridge.lean ====
/-
  The kernel's arrangement of the first layer is the network's.

  A selection row whose first 16 entries are the one-hot of a channel `i` and whose last 16 entries the one-hot of
  a channel `j` multiplies the 32 rows of a sample: every product but two has the factor `0`, the two that stay have
  the factor `1`, so the sum is row `i` (channel `i` through the upper half of the first weight matrix, plus the
  bias) plus row `16 + j` (channel `j` through the lower half). The network adds the bias last: the two agree by
  commutativity and associativity of the sum alone, which hold for all extended reals, so nothing here asks whether
  an entry is finite.
-/
import proofs.«404360_j20074677141790_3_alg».proof.Proof.KShape
import Mathlib.Algebra.BigOperators.Fin

noncomputable section

namespace Cert.PairNet

open Idealize.ShloMosaic Idealize.ShloMosaic.ValueIdx

/-- A word below 16 is the word of its own value. -/
theorem word_eq_ofNat (v : BitVec 32) : v = BitVec.ofNat 32 v.toNat :=
  BitVec.eq_of_toNat_eq (by rw [BitVec.toNat_ofNat, Nat.mod_eq_of_lt v.isLt])

/-- A one-hot row times a family of 16 entries is the entry the word names. -/
theorem sum_onehot (v : BitVec 32) (hv : v.toNat < 16) (R : Fin 16 → EReal) :
    ∑ q : Fin 16, onehot v q * R q = R ⟨v.toNat, hv⟩ := by
  rw [Finset.sum_eq_single (⟨v.toNat, hv⟩ : Fin 16)]
  · unfold onehot
    rw [if_pos (word_eq_ofNat v), one_mul]
  · intro q _ hq
    unfold onehot
    rw [if_neg, zero_mul]
    intro h
    apply hq
    apply Fin.ext
    have e := congrArg BitVec.toNat h
    rw [BitVec.toNat_ofNat] at e
    have hq' := q.isLt
    show q.val = v.toNat
    omega
  · intro h
    exact absurd (Finset.mem_univ _) h

variable (X : SX.Idx → EReal) (W1 : SW1.Idx → EReal) (B1 : SV.Idx → EReal) (W2 : SW.Idx → EReal) (B2 : SV.Idx → EReal)
  (W3 : SW.Idx → EReal) (B3 : SV.Idx → EReal)
  (vi vj : Fin 120 → BitVec 32) (hI : ∀ p, (vi p).toNat < 16) (hJ : ∀ p, (vj p).toNat < 16)
  (x : SXb.Idx → EReal) (w : SWm.Idx → EReal) (s : SSel.Idx → EReal)

/-- The first layer before its activation: the selection row times the sample's 32 rows is the pair's two
    channels through the two halves of the first weight matrix, plus the bias. Here `x` is the block's sample `r`
    and `X` the array's sample `b` (`hx`), `w` the merged weight (`hwl`, `hwr`), `s` the two one-hot halves. -/
theorem kpre1_eq (b : Fin 1024) (r : Fin 128)
    (hx : ∀ (c : Fin 16) (f : Fin 128), x (ix3 r c f) = X (ix3 b c f))
    (hwl : ∀ f k : Fin 128, w (ix2 f (lo k)) = W1 (ix2 (lo f) k))
    (hwr : ∀ f k : Fin 128, w (ix2 f (hi k)) = W1 (ix2 (hi f) k))
    (hsl : ∀ (p : Fin 120) (q : Fin 16), s (ix2 p (Fin.castAdd 16 q)) = onehot (vi p) q)
    (hsr : ∀ (p : Fin 120) (q : Fin 16), s (ix2 p (Fin.natAdd 16 q)) = onehot (vj p) q)
    (p : Fin 120) (k : Fin 128) :
    kpre1 x w B1 s r p k
      = pre1 X W1 B1 (fun p => ⟨(vi p).toNat, hI p⟩) (fun p => ⟨(vj p).toNat, hJ p⟩) b p k := by
  have hL : ∀ q : Fin 16, s (ix2 p (Fin.castAdd 16 q)) * rows x w B1 r (Fin.castAdd 16 q) k
      = onehot (vi p) q * (upper X W1 b q k + B1 (ix1 k)) := by
    intro q
    rw [hsl]
    congr 1
    unfold rows
    rw [dif_pos (show (Fin.castAdd 16 q).val < 16 from q.isLt)]
    unfold upper
    congr 1
    refine Finset.sum_congr rfl fun f _ => ?_
    rw [hwl]
    have e : (⟨(Fin.castAdd 16 q).val, q.isLt⟩ : Fin 16) = q := Fin.ext rfl
    rw [e, hx]
  have hR : ∀ q : Fin 16, s (ix2 p (Fin.natAdd 16 q)) * rows x w B1 r (Fin.natAdd 16 q) k
      = onehot (vj p) q * lower X W1 b q k := by
    intro q
    rw [hsr]
    congr 1
    unfold rows
    have hn : ¬ (Fin.natAdd 16 q).val < 16 := by
      show ¬ (16 + q.val < 16)
      omega
    rw [dif_neg hn]
    unfold lower
    refine Finset.sum_congr rfl fun f _ => ?_
    rw [hwr]
    have e : (⟨(Fin.natAdd 16 q).val - 16, by show 16 + q.val - 16 < 16; have := q.isLt; omega⟩ : Fin 16) = q :=
      Fin.ext (by show 16 + q.val - 16 = q.val; omega)
    rw [e, hx]
  unfold kpre1 pre1
  show ∑ c : Fin (16 + 16), s (ix2 p c) * rows x w B1 r c k = _
  rw [Fin.sum_univ_add, Finset.sum_congr rfl (fun q _ => hL q), Finset.sum_congr rfl (fun q _ => hR q),
    sum_onehot _ (hI p), sum_onehot _ (hJ p)]
  exact add_right_comm _ _ _

/-- The block's result at sample `r`, unit `h` is the network's at the array's sample `b`, unit `h`: the block's
    biases and later weight matrices are the arrays' own (`hb1` … `hb3`), its first layer the network's (`kpre1_eq`). -/
theorem kout_eq (b1 : SV.Idx → EReal) (w2 : SW.Idx → EReal) (b2 : SV.Idx → EReal) (w3 : SW.Idx → EReal) (b3 : SV.Idx → EReal)
    (hb1 : b1 = B1) (hw2 : w2 = W2) (hb2 : b2 = B2) (hw3 : w3 = W3) (hb3 : b3 = B3)
    (b : Fin 1024) (r : Fin 128)
    (hx : ∀ (c : Fin 16) (f : Fin 128), x (ix3 r c f) = X (ix3 b c f))
    (hwl : ∀ f k : Fin 128, w (ix2 f (lo k)) = W1 (ix2 (lo f) k))
    (hwr : ∀ f k : Fin 128, w (ix2 f (hi k)) = W1 (ix2 (hi f) k))
    (hsl : ∀ (p : Fin 120) (q : Fin 16), s (ix2 p (Fin.castAdd 16 q)) = onehot (vi p) q)
    (hsr : ∀ (p : Fin 120) (q : Fin 16), s (ix2 p (Fin.natAdd 16 q)) = onehot (vj p) q)
    (h : Fin 128) :
    kout x w b1 s w2 b2 w3 b3 (ix2 r h)
      = out X W1 B1 W2 B2 W3 B3 (fun p => ⟨(vi p).toNat, hI p⟩) (fun p => ⟨(vj p).toNat, hJ p⟩) (ix2 b h) := by
  subst hb1 hw2 hb2 hw3 hb3
  show Ideal.div (∑ p : Fin 120, dense w3 b3 (dense w2 b2 (fun k => relu (kpre1 x w b1 s r p k))) h) npairs
    = Ideal.div (∑ p : Fin 120, act3 X W1 b1 w2 b2 w3 b3 (fun p => ⟨(vi p).toNat, hI p⟩) (fun p => ⟨(vj p).toNat, hJ p⟩) b p h) npairs
  congr 1
  refine Finset.sum_congr rfl fun p _ => ?_
  have e : (fun k => relu (kpre1 x w b1 s r p k))
      = act1 X W1 b1 (fun p => ⟨(vi p).toNat, hI p⟩) (fun p => ⟨(vj p).toNat, hJ p⟩) b p := funext fun k => by
    unfold act1
    rw [kpre1_eq X W1 b1 vi vj hI hJ x w s b r hx hwl hwr hsl hsr p k]
  rw [e]
  rfl

end Cert.PairNet

end
-- ==== Proof.Blocks.lean ====
/-
  From blocks to the array. Grid point `t` (of 8) stages samples `128 t` to `128 t + 127` of the input, the whole of
  every weight, bias and the selection matrix, and writes back rows `128 t` to `128 t + 127` of the result. What it
  writes is the network's result restricted to those rows; the eight row ranges cover the 1024 rows; so after the
  run the result array is the network's result of the argument arrays.
-/
import proofs.«404360_j20074677141790_3_alg».proof.Proof.Gen.KernelIdeal.Value
import proofs.«404360_j20074677141790_3_alg».proof.Proof.KPay
import proofs.«404360_j20074677141790_3_alg».proof.Proof.KHost
import proofs.«404360_j20074677141790_3_alg».proof.Proof.Bridge
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the input's and the result's block index on the sample axis is the
    point's number, every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 8 := by
  have h : t.val < cfg0.N := t.isLt
  have e : cfg0.N = 8 := N_0
  omega

/-- The input's block at point `t`: sample `r` of the block is sample `128 t + r` of the array. -/
theorem blk_x (c : Dev nD) (t : Fin cfg0.N) (r : Fin 128) (q : Fin 16) (f : Fin 128) :
    iblk m c 0 t (ix3 r q f)
      = m ((c : Thread nD τ).loc main_arg0) (ix3 (⟨t.val * 128 + r.val, by have := t_lt t; omega⟩ : Fin 1024) q f) := by
  obtain ⟨e0, e1, e2, -⟩ := idx_facts t
  show V m c main_arg0 (((cfg0.win 0).blk t).view.emb (ix3 r q f)) = _
  rw [V_main_arg0]
  congr 1
  funext a
  apply Fin.ext
  match a with
  | ⟨0, _⟩ => show win0_0.index t (0 : Fin 3) * 128 + 1 * r.val = t.val * 128 + r.val; rw [e0]; omega
  | ⟨1, _⟩ => show win0_0.index t (1 : Fin 3) * 16 + 1 * q.val = q.val; rw [e1]; omega
  | ⟨2, _⟩ => show win0_0.index t (2 : Fin 3) * 128 + 1 * f.val = f.val; rw [e2]; omega

/-- A window that stages the whole of its array reads, at every point and index, the array itself: the merged
    first weight matrix, -/
theorem blk_w1 (c : Dev nD) (t : Fin cfg0.N) (i : S128x256.Idx) : iblk m c 1 t i = V m c main_v3 i := by
  obtain ⟨-, -, -, e0, e1, -⟩ := idx_facts t
  show V m c main_v3 (((cfg0.win 1).blk t).view.emb i) = _
  congr 1
  funext a
  apply Fin.ext
  match a with
  | ⟨0, _⟩ => show win0_1.index t (0 : Fin 2) * 128 + 1 * (i 0).val = (i 0).val; rw [e0]; omega
  | ⟨1, _⟩ => show win0_1.index t (1 : Fin 2) * 256 + 1 * (i 1).val = (i 1).val; rw [e1]; omega

/-- the first bias, -/
theorem blk_b1 (c : Dev nD) (t : Fin cfg0.N) (i : S128.Idx) :
    iblk m c 2 t i = m ((c : Thread nD τ).loc main_arg2) i := by
  obtain ⟨-, -, -, -, -, e0, -⟩ := idx_facts t
  show V m c main_arg2 (((cfg0.win 2).blk t).view.emb i) = _
  rw [V_main_arg2]
  congr 1
  funext a
  apply Fin.ext
  match a with
  | ⟨0, _⟩ => show win0_2.index t (0 : Fin 1) * 128 + 1 * (i 0).val = (i 0).val; rw [e0]; omega

/-- the selection matrix, -/
theorem blk_sel (c : Dev nD) (t : Fin cfg0.N) (i : S120x32.Idx) : iblk m c 3 t i = V m c main_v8 i := by
  obtain ⟨-, -, -, -, -, -, e0, e1, -⟩ := idx_facts t
  show V m c main_v8 (((cfg0.win 3).blk t).view.emb i) = _
  congr 1
  funext a
  apply Fin.ext
  match a with
  | ⟨0, _⟩ => show win0_3.index t (0 : Fin 2) * 120 + 1 * (i 0).val = (i 0).val; rw [e0]; omega
  | ⟨1, _⟩ => show win0_3.index t (1 : Fin 2) * 32 + 1 * (i 1).val = (i 1).val; rw [e1]; omega

/-- the second weight matrix, -/
theorem blk_w2 (c : Dev nD) (t : Fin cfg0.N) (i : S128x128.Idx) : iblk m c 4 t i = V m c main_v4 i := by
  obtain ⟨-, -, -, -, -, -, -, -, e0, e1, -⟩ := idx_facts t
  show V m c main_v4 (((cfg0.win 4).blk t).view.emb i) = _
  congr 1
  funext a
  apply Fin.ext
  match a with
  | ⟨0, _⟩ => show win0_4.index t (0 : Fin 2) * 128 + 1 * (i 0).val = (i 0).val; rw [e0]; omega
  | ⟨1, _⟩ => show win0_4.index t (1 : Fin 2) * 128 + 1 * (i 1).val = (i 1).val; rw [e1]; omega

/-- the second bias, -/
theorem blk_b2 (c : Dev nD) (t : Fin cfg0.N) (i : S128.Idx) :
    iblk m c 5 t i = m ((c : Thread nD τ).loc main_arg4) i := by
  obtain ⟨-, -, -, -, -, -, -, -, -, -, e0, -⟩ := idx_facts t
  show V m c main_arg4 (((cfg0.win 5).blk t).view.emb i) = _
  rw [V_main_arg4]
  congr 1
  funext a
  apply Fin.ext
  match a with
  | ⟨0, _⟩ => show win0_5.index t (0 : Fin 1) * 128 + 1 * (i 0).val = (i 0).val; rw [e0]; omega

/-- the third weight matrix, -/
theorem blk_w3 (c : Dev nD) (t : Fin cfg0.N) (i : S128x128.Idx) : iblk m c 6 t i = V m c main_v5 i := by
  obtain ⟨-, -, -, -, -, -, -, -, -, -, -, e0, e1, -⟩ := idx_facts t
  show V m c main_v5 (((cfg0.win 6).blk t).view.emb i) = _
  congr 1
  funext a
  apply Fin.ext
  match a with
  | ⟨0, _⟩ => show win0_6.index t (0 : Fin 2) * 128 + 1 * (i 0).val = (i 0).val; rw [e0]; omega
  | ⟨1, _⟩ => show win0_6.index t (1 : Fin 2) * 128 + 1 * (i 1).val = (i 1).val; rw [e1]; omega

/-- and the third bias. -/
theorem blk_b3 (c : Dev nD) (t : Fin cfg0.N) (i : S128.Idx) :
    iblk m c 7 t i = m ((c : Thread nD τ).loc main_arg6) i := by
  obtain ⟨-, -, -, -, -, -, -, -, -, -, -, -, -, e0, -⟩ := idx_facts t
  show V m c main_arg6 (((cfg0.win 7).blk t).view.emb i) = _
  rw [V_main_arg6]
  congr 1
  funext a
  apply Fin.ext
  match a with
  | ⟨0, _⟩ => show win0_7.index t (0 : Fin 1) * 128 + 1 * (i 0).val = (i 0).val; rw [e0]; omega

/-- The network's result of core `c`'s argument arrays, its two index arrays read as channels. -/
abbrev net (c : Dev nD) (hI : ∀ p : Fin 120, (m ((c : Thread nD τ).loc main_arg7) (ix1 p)).toNat < 16)
    (hJ : ∀ p : Fin 120, (m ((c : Thread nD τ).loc main_arg8) (ix1 p)).toNat < 16) : S1024x128.Idx → EReal :=
  Cert.PairNet.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (fun p => ⟨(m ((c : Thread nD τ).loc main_arg7) (ix1 p)).toNat, hI p⟩)
    (fun p => ⟨(m ((c : Thread nD τ).loc main_arg8) (ix1 p)).toNat, hJ p⟩)

/-- WHAT POINT `t` WRITES BACK is rows `128 t` to `128 t + 127` of the network's result. -/
theorem flushed_eq (c : Dev nD) (hI : ∀ p : Fin 120, (m ((c : Thread nD τ).loc main_arg7) (ix1 p)).toNat < 16)
    (hJ : ∀ p : Fin 120, (m ((c : Thread nD τ).loc main_arg8) (ix1 p)).toNat < 16) (t : Fin cfg0.N) :
    (dats m 0 c).flushed 8 t = ((cfg0.win 8).blk t).view.read (Elt Ideal) (net m c hI hJ) := by
  rw [Cert.KernelIdeal.Value.flushed8]
  unfold out0_8
  rw [View.canon_unit_zero hz2]
  simp only [View.ld_unit_zero (S := S128x16x128) hz3, View.ld_unit_zero (S := S128x256) hz2,
    View.ld_unit_zero (S := S128) hz1, View.ld_unit_zero (S := S120x32) hz2, View.ld_unit_zero (S := S128x128) hz2]
  funext j
  obtain ⟨r, h, rfl⟩ : ∃ (r h : Fin 128), j = ix2 r h := ⟨j 0, j 1, eq_ix2 j⟩
  show k0_pay1 (F := Ideal) (k0_pay2 (iblk m c 0 t) (iblk m c 1 t) (iblk m c 2 t) (iblk m c 3 t) (iblk m c 4 t)
      (iblk m c 5 t) (iblk m c 6 t)) (iblk m c 7 t) (ix2 r h)
    = net m c hI hJ (((cfg0.win 8).blk t).view.emb (ix2 r h))
  refine (Cert.KernelIdeal.Pay.pay_eq (iblk m c 0 t) (iblk m c 1 t) (iblk m c 2 t) (iblk m c 3 t) (iblk m c 4 t)
    (iblk m c 5 t) (iblk m c 6 t) (iblk m c 7 t) r h).trans ?_
  obtain ⟨-, -, -, -, -, -, -, -, -, -, -, -, -, -, e0, e1⟩ := idx_facts t
  have hb : ((cfg0.win 8).blk t).view.emb (ix2 r h)
      = ix2 (⟨t.val * 128 + r.val, by have := t_lt t; omega⟩ : Fin 1024) h := by
    funext a
    apply Fin.ext
    match a with
    | ⟨0, _⟩ => show win0_8.index t (0 : Fin 2) * 128 + 1 * r.val = t.val * 128 + r.val; rw [e0]; omega
    | ⟨1, _⟩ => show win0_8.index t (1 : Fin 2) * 128 + 1 * h.val = h.val; rw [e1]; omega
  rw [hb]
  exact Cert.PairNet.kout_eq (X := m ((c : Thread nD τ).loc main_arg0)) (W1 := m ((c : Thread nD τ).loc main_arg1))
    (B1 := m ((c : Thread nD τ).loc main_arg2)) (W2 := m ((c : Thread nD τ).loc main_arg3))
    (B2 := m ((c : Thread nD τ).loc main_arg4)) (W3 := m ((c : Thread nD τ).loc main_arg5))
    (B3 := m ((c : Thread nD τ).loc main_arg6))
    (vi := fun p => m ((c : Thread nD τ).loc main_arg7) (ix1 p)) (vj := fun p => m ((c : Thread nD τ).loc main_arg8) (ix1 p))
    (hI := hI) (hJ := hJ) (x := iblk m c 0 t) (w := iblk m c 1 t) (s := iblk m c 3 t)
    (b1 := iblk m c 2 t) (w2 := iblk m c 4 t) (b2 := iblk m c 5 t) (w3 := iblk m c 6 t) (b3 := iblk m c 7 t)
    (hb1 := funext fun i => blk_b1 m c t i)
    (hw2 := funext fun i => (blk_w2 m c t i).trans (Cert.KernelIdeal.HostVal.w2_eq m c i))
    (hb2 := funext fun i => blk_b2 m c t i)
    (hw3 := funext fun i => (blk_w3 m c t i).trans (Cert.KernelIdeal.HostVal.w3_eq m c i))
    (hb3 := funext fun i => blk_b3 m c t i)
    (b := ⟨t.val * 128 + r.val, by have := t_lt t; omega⟩) (r := r)
    (hx := fun q f => blk_x m c t r q f)
    (hwl := fun f k => (blk_w1 m c t _).trans (Cert.KernelIdeal.HostVal.merged_left m c f k))
    (hwr := fun f k => (blk_w1 m c t _).trans (Cert.KernelIdeal.HostVal.merged_right m c f k))
    (hsl := fun p q => (blk_sel m c t _).trans (Cert.KernelIdeal.HostVal.sel_left m c p q))
    (hsr := fun p q => (blk_sel m c t _).trans (Cert.KernelIdeal.HostVal.sel_right m c p q))
    (h := h)

/-- An index of the result is in point `t`'s block iff its row is among the block's 128 rows. -/
theorem mem_blk (t : Fin cfg0.N) (i : S1024x128.Idx) :
    i ∈ ((cfg0.win 8).blk t).view.set ↔ ∀ a : Fin 2, win0_8.index t a * S128x128.size a ≤ (i a).val
      ∧ (i a).val < win0_8.index t a * S128x128.size a + S128x128.size a := by
  show i ∈ ((View.whole main_v9).slice (win0_8.rect t)).set ↔ _
  rw [View.set_slice_whole, Rect.mem_set_unit]
  exact Iff.rfl

/-- Every index of the result is in the block of the point that holds its row: point `row / 128`. -/
theorem cover (i : S1024x128.Idx) :
    ∃ t : Fin cfg0.N, (cfg0.win 8).flush t = true ∧ i ∈ ((cfg0.win 8).blk t).view.set := by
  have hi0 : (i 0).val < 1024 := (i 0).isLt
  have hi1 : (i 1).val < 128 := (i 1).isLt
  have hN : cfg0.N = 8 := N_0
  have hN' : grid0.N = 8 := N_0
  refine ⟨⟨(i 0).val / 128, by omega⟩, flush0_8 _, ?_⟩
  rw [mem_blk]
  obtain ⟨-, -, -, -, -, -, -, -, -, -, -, -, -, -, e0, e1⟩ := idx_facts ⟨(i 0).val / 128, by omega⟩
  have e0' : win0_8.index ⟨(i 0).val / 128, by omega⟩ (0 : Fin 2) = (i 0).val / 128 := e0
  intro a
  match a with
  | ⟨0, _⟩ =>
    show win0_8.index ⟨(i 0).val / 128, _⟩ (0 : Fin 2) * 128 ≤ (i 0).val
      ∧ (i 0).val < win0_8.index ⟨(i 0).val / 128, _⟩ (0 : Fin 2) * 128 + 128
    rw [e0']; omega
  | ⟨1, _⟩ =>
    show win0_8.index ⟨(i 0).val / 128, _⟩ (1 : Fin 2) * 128 ≤ (i 1).val
      ∧ (i 1).val < win0_8.index ⟨(i 0).val / 128, _⟩ (1 : Fin 2) * 128 + 128
    rw [e1]; omega

/-- THE RESULT ARRAY after the run is the network's result of the argument arrays. -/
theorem final (c : Dev nD) (hI : ∀ p : Fin 120, (m ((c : Thread nD τ).loc main_arg7) (ix1 p)).toNat < 16)
    (hJ : ∀ p : Fin 120, (m ((c : Thread nD τ).loc main_arg8) (ix1 p)).toNat < 16) :
    (dats m 0 c).arrAt 8 cfg0.N = net m c hI hJ :=
  (dats m 0 c).arrAt_eq_of_cover 8 (net m c hI hJ) (fun t _ => flushed_eq m c hI hJ t) cover

/-- The kernel's run at the ideal values: it ends with the result array at the network's result of the arguments,
    the arguments unchanged. -/
theorem run (hI : ∀ (c : Dev nD) (p : Fin 120), (m ((c : Thread nD τ).loc main_arg7) (ix1 p)).toNat < 16)
    (hJ : ∀ (c : Dev nD) (p : Fin 120), (m ((c : Thread nD τ).loc main_arg8) (ix1 p)).toNat < 16) :
    θ_run defs (onTc (τ := τ) (main (F := Ideal))) ⟨m, fun _ => 0, ρ⟩ fun r => ∀ c : Dev nD,
      r.2.mem ((c : Thread nD τ).loc main_v9) = net m c (hI c) (hJ c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hI c) (hJ c)), (h c).2⟩)
    (Cert.KernelIdeal.Value.run_blocks m ρ)

end Cert.KernelIdeal.Blocks

end
-- ==== Proof.RefVal.lean ====
/-
  The reference's result, at the ideal values, is the network `PairNet.out` of its arguments, when every word of the
  two index arrays names a channel (is below 16 read unsigned).
-/
import proofs.«404360_j20074677141790_3_alg».proof.Proof.Gen.ReferenceIdeal.Read
import proofs.«404360_j20074677141790_3_alg».proof.Proof.Spec
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx

/-! ## The index words -/

/-- A word below 16 read unsigned is not negative read signed. -/
theorem slt_zero (w : BitVec 32) (h : w.toNat < 16) : IntOp.cmpi .slt w (0#32) = 0#1 := by
  unfold IntOp.cmpi
  have h0 : (0#32 : BitVec 32).toInt = 0 := by decide
  have hw : w.toInt = (w.toNat : Int) := by unfold BitVec.toInt; rw [if_pos (by omega)]
  have e : w.slt (0#32) = false := by
    simp only [BitVec.slt, h0, hw, decide_eq_false_iff_not, not_lt]
    exact Int.natCast_nonneg _
  rw [e]; rfl

/-- A word below 16 read unsigned is its own value read signed. -/
theorem toInt_toNat (w : BitVec 32) (h : w.toNat < 16) : w.toInt.toNat = w.toNat := by
  unfold BitVec.toInt
  rw [if_pos (by omega)]
  exact Int.toNat_natCast _

/-- The wrap of a negative index leaves a word below 16 as it is. -/
theorem wrap_at (x : (⟨S120, .i32⟩ : BufTy).Contents (Elt Ideal)) (h : ∀ p : Fin 120, (x (ix1 p)).toNat < 16) (p : Fin 120) :
    val_main_v4 (F := Ideal) x (ix1 p) = x (ix1 p) := by
  rw [val_main_v4_apply, val_main_v1_apply, val_main_v0_apply, val_main_c_apply, slt_zero _ (h p)]
  exact select_zero _ _

/-- The index column at row `p` is the index word `p`. -/
theorem col_at (x : (⟨S120, .i32⟩ : BufTy).Contents (Elt Ideal)) (h : ∀ p : Fin 120, (x (ix1 p)).toNat < 16) (p : Fin 120) :
    val_main_v5 (F := Ideal) x (ix2 p (0 : Fin 1)) = x (ix1 p) := by
  rw [val_main_v5_apply]
  have e : idx_main_v5 (ix2 p (0 : Fin 1)) = ix1 p := funext fun a => Fin.ext (by match a with | ⟨0, _⟩ => rfl)
  rw [e]; exact wrap_at x h p

/-! ## The gather of a channel -/

local notation "G" => gather_S1024x16x128_S120x1_S1024x120x128_02_1_n_n_1_1_10241128

/-- On the sample axis the gather reads the result's own coordinate. -/
theorem gather_axis0 (j : S1024x120x128.Idx) (idx : IVec S120x1 32) : ((G).operandIdx j idx 0).val = (j 0).val := by
  show (G).start j idx 0 + (G).batchCoord j 0 + (G).offCoord j 0 = _
  rw [GatherDims.batchCoord_eq_zero _ _ _ List.not_mem_nil, Nat.add_zero]
  unfold GatherDims.start GatherDims.offCoord
  rw [dif_neg (show ¬ ((0 : Fin S1024x16x128.rank) ∈ (G).startIndexMap) by decide),
    dif_pos (show (0 : Fin S1024x16x128.rank) ∈ (G).sKept by decide), Nat.zero_add]
  rfl

/-- On the feature axis the gather reads the result's own coordinate. -/
theorem gather_axis2 (j : S1024x120x128.Idx) (idx : IVec S120x1 32) : ((G).operandIdx j idx 2).val = (j 2).val := by
  show (G).start j idx 2 + (G).batchCoord j 2 + (G).offCoord j 2 = _
  rw [GatherDims.batchCoord_eq_zero _ _ _ List.not_mem_nil, Nat.add_zero]
  unfold GatherDims.start GatherDims.offCoord
  rw [dif_neg (show ¬ ((2 : Fin S1024x16x128.rank) ∈ (G).startIndexMap) by decide),
    dif_pos (show (2 : Fin S1024x16x128.rank) ∈ (G).sKept by decide), Nat.zero_add]
  rfl

/-- On the channel axis the gather reads the start index of the result's pair, read signed and clamped to `[0, 15]`. -/
theorem gather_axis1 (j : S1024x120x128.Idx) (idx : IVec S120x1 32) :
    ((G).operandIdx j idx 1).val = min (idx (ix2 (j 1) (0 : Fin 1))).toInt.toNat 15 := by
  show (G).start j idx 1 + (G).batchCoord j 1 + (G).offCoord j 1 = _
  rw [GatherDims.batchCoord_eq_zero _ _ _ List.not_mem_nil, Nat.add_zero,
    GatherDims.offCoord_eq_zero _ _ _ (show ¬ ((1 : Fin S1024x16x128.rank) ∈ (G).sKept) by decide), Nat.add_zero]
  unfold GatherDims.start
  rw [dif_pos (show (1 : Fin S1024x16x128.rank) ∈ (G).startIndexMap by decide)]
  have hsi : (G).siIdx j ⟨List.idxOf (1 : Fin S1024x16x128.rank) (G).startIndexMap,
      List.idxOf_lt_length_iff.2 (show (1 : Fin S1024x16x128.rank) ∈ (G).startIndexMap by decide)⟩ = ix2 (j 1) (0 : Fin 1) := by
    funext c; refine Fin.ext ?_
    match c with
    | ⟨0, _⟩ => rfl
    | ⟨1, _⟩ => rfl
  rw [hsi]
  rfl

/-- The gather along the channel axis at `(b, p, f)` reads channel `idx[p, 0]` of sample `b` at feature `f`, when the
    index words are below 16. -/
theorem gather_at (x : S1024x16x128.Idx → EReal) (idx : IVec S120x1 32)
    (h : ∀ p : Fin 120, (idx (ix2 p (0 : Fin 1))).toNat < 16) (b : Fin 1024) (p : Fin 120) (f : Fin 128) :
    Host.gather G x idx (ix3 b p f) = x (ix3 b ⟨(idx (ix2 p (0 : Fin 1))).toNat, h p⟩ f) := by
  unfold Host.gather
  refine congrArg x (funext fun a => Fin.ext ?_)
  match a with
  | ⟨0, _⟩ => exact gather_axis0 _ _
  | ⟨1, _⟩ =>
    refine (gather_axis1 _ _).trans ?_
    show min (idx (ix2 p (0 : Fin 1))).toInt.toNat 15 = (idx (ix2 p (0 : Fin 1))).toNat
    rw [toInt_toNat _ (h p)]
    have := h p
    omega
  | ⟨2, _⟩ => exact gather_axis2 _ _

/-- The first gathered array at `(b, p, f)` is channel `x7[p]` of sample `b`. -/
theorem v6_at (x0 : (⟨S1024x16x128, .f32⟩ : BufTy).Contents (Elt Ideal)) (x7 : (⟨S120, .i32⟩ : BufTy).Contents (Elt Ideal))
    (hI : ∀ p : Fin 120, (x7 (ix1 p)).toNat < 16) (b : Fin 1024) (p : Fin 120) (f : Fin 128) :
    val_main_v6 (F := Ideal) x0 x7 (ix3 b p f) = x0 (ix3 b ⟨(x7 (ix1 p)).toNat, hI p⟩ f) := by
  unfold val_main_v6
  have hc : ∀ q : Fin 120, (val_main_v5 (F := Ideal) x7 (ix2 q (0 : Fin 1))).toNat < 16 := fun q => by
    rw [col_at x7 hI q]; exact hI q
  refine (gather_at x0 (val_main_v5 (F := Ideal) x7) hc b p f).trans ?_
  refine congrArg x0 (funext fun a => Fin.ext ?_)
  match a with
  | ⟨0, _⟩ => rfl
  | ⟨1, _⟩ => exact congrArg BitVec.toNat (col_at x7 hI p)
  | ⟨2, _⟩ => rfl

/-- The second gathered array at `(b, p, f)` is channel `x8[p]` of sample `b`. -/
theorem v13_at (x0 : (⟨S1024x16x128, .f32⟩ : BufTy).Contents (Elt Ideal)) (x8 : (⟨S120, .i32⟩ : BufTy).Contents (Elt Ideal))
    (hJ : ∀ p : Fin 120, (x8 (ix1 p)).toNat < 16) (b : Fin 1024) (p : Fin 120) (f : Fin 128) :
    val_main_v13 (F := Ideal) x0 x8 (ix3 b p f) = x0 (ix3 b ⟨(x8 (ix1 p)).toNat, hJ p⟩ f) := by
  unfold val_main_v13
  have e5 : val_main_v12 (F := Ideal) x8 = val_main_v5 (F := Ideal) x8 := rfl
  rw [e5]
  exact v6_at x0 x8 hJ b p f

/-! ## The layers -/

section Layers

variable (x0 : (⟨S1024x16x128, .f32⟩ : BufTy).Contents (Elt Ideal)) (x1 : (⟨S256x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 x8 : (⟨S120, .i32⟩ : BufTy).Contents (Elt Ideal))
  (hI : ∀ p : Fin 120, (x7 (ix1 p)).toNat < 16) (hJ : ∀ p : Fin 120, (x8 (ix1 p)).toNat < 16)

/-- The concatenated features below 128 are the first gathered channel's. -/
theorem v14_lo (b : Fin 1024) (p : Fin 120) (f : Fin 128) :
    val_main_v14 (F := Ideal) x0 x7 x8 (ix3 b p (PairNet.lo f)) = val_main_v6 (F := Ideal) x0 x7 (ix3 b p f) := by
  unfold val_main_v14
  exact concatenate_pair_apply_left (2 : Fin S1024x120x256.rank) _ _ concatenates_S1024x120x128_S1024x120x128_S1024x120x256_d2
    (ix3 b p (PairNet.lo f)) rfl (ix3 b p f)
    (fun c => by match c with | ⟨0, _⟩ => rfl | ⟨1, _⟩ => rfl | ⟨2, _⟩ => rfl)

/-- The concatenated features from 128 on are the second gathered channel's. -/
theorem v14_hi (b : Fin 1024) (p : Fin 120) (f : Fin 128) :
    val_main_v14 (F := Ideal) x0 x7 x8 (ix3 b p (PairNet.hi f)) = val_main_v13 (F := Ideal) x0 x8 (ix3 b p f) := by
  unfold val_main_v14
  exact concatenate_pair_apply_right (2 : Fin S1024x120x256.rank) _ _ concatenates_S1024x120x128_S1024x120x128_S1024x120x256_d2
    (ix3 b p (PairNet.hi f)) rfl rfl (ix3 b p f)
    (fun c hc => by
      match c, hc with
      | ⟨0, _⟩, _ => rfl
      | ⟨1, _⟩, _ => rfl
      | ⟨2, _⟩, hc => exact absurd rfl hc)
    (by show f.val + 128 = 128 + f.val; omega)

/-- The first layer's 256-term sum is the sum of its two 128-term halves. -/
theorem v15_at (b : Fin 1024) (p : Fin 120) (k : Fin 128) :
    val_main_v15 (F := Ideal) x0 x1 x7 x8 (ix3 b p k)
      = PairNet.upper x0 x1 b ⟨(x7 (ix1 p)).toNat, hI p⟩ k + PairNet.lower x0 x1 b ⟨(x8 (ix1 p)).toNat, hJ p⟩ k := by
  rw [val_main_v15_apply]
  unfold PairNet.upper PairNet.lower
  show ∑ c : Fin (128 + 128), _ = _
  rw [Fin.sum_univ_add]
  refine congrArg₂ (· + ·) (Finset.sum_congr rfl fun f _ => ?_) (Finset.sum_congr rfl fun f _ => ?_)
  · have el : lidx_main_v15 (ix3 b p k) (Fin.castAdd 128 f) = ix3 b p (PairNet.lo f) :=
      funext fun a => Fin.ext (by match a with | ⟨0, _⟩ => rfl | ⟨1, _⟩ => rfl | ⟨2, _⟩ => rfl)
    have er : ridx_main_v15 (ix3 b p k) (Fin.castAdd 128 f) = ix2 (PairNet.lo f) k :=
      funext fun a => Fin.ext (by match a with | ⟨0, _⟩ => rfl | ⟨1, _⟩ => rfl)
    rw [el, er, v14_lo, v6_at x0 x7 hI]
  · have el : lidx_main_v15 (ix3 b p k) (Fin.natAdd 128 f) = ix3 b p (PairNet.hi f) :=
      funext fun a => Fin.ext (by match a with | ⟨0, _⟩ => rfl | ⟨1, _⟩ => rfl | ⟨2, _⟩ => rfl)
    have er : ridx_main_v15 (ix3 b p k) (Fin.natAdd 128 f) = ix2 (PairNet.hi f) k :=
      funext fun a => Fin.ext (by match a with | ⟨0, _⟩ => rfl | ⟨1, _⟩ => rfl)
    rw [el, er, v14_hi, v13_at x0 x8 hJ]

/-- A bias broadcast through `[1, 1, 128]` reads the bias at the hidden unit. -/
theorem bias_idx (b : Fin 1024) (p : Fin 120) (k : Fin 128) : idx_main_v16 (idx_main_v17 (ix3 b p k)) = ix1 k :=
  funext fun a => Fin.ext (by match a with | ⟨0, _⟩ => rfl)

/-- The first layer before its activation. -/
theorem v18_at (b : Fin 1024) (p : Fin 120) (k : Fin 128) :
    val_main_v18 (F := Ideal) x0 x1 x2 x7 x8 (ix3 b p k) = PairNet.pre1 x0 x1 x2 (fun p : Fin 120 => (⟨(x7 (ix1 p)).toNat, hI p⟩ : Fin 16))
        (fun p : Fin 120 => (⟨(x8 (ix1 p)).toNat, hJ p⟩ : Fin 16)) b p k := by
  rw [val_main_v18_apply, val_main_v17_apply, val_main_v16_apply, bias_idx, v15_at x0 x1 x7 x8 hI hJ]
  rfl

/-- The first layer. -/
theorem v19_at (b : Fin 1024) (p : Fin 120) (k : Fin 128) :
    val_main_v19 (F := Ideal) x0 x1 x2 x7 x8 (ix3 b p k) = PairNet.act1 x0 x1 x2 (fun p : Fin 120 => (⟨(x7 (ix1 p)).toNat, hI p⟩ : Fin 16))
        (fun p : Fin 120 => (⟨(x8 (ix1 p)).toNat, hJ p⟩ : Fin 16)) b p k := by
  rw [val_main_v19_apply, val_main_call0_v0_apply, val_main_call0_cst_apply, v18_at x0 x1 x2 x7 x8 hI hJ]
  rfl

/-- The second layer. -/
theorem v24_at (b : Fin 1024) (p : Fin 120) (k : Fin 128) :
    val_main_v24 (F := Ideal) x0 x1 x2 x3 x4 x7 x8 (ix3 b p k) = PairNet.act2 x0 x1 x2 x3 x4 (fun p : Fin 120 => (⟨(x7 (ix1 p)).toNat, hI p⟩ : Fin 16))
        (fun p : Fin 120 => (⟨(x8 (ix1 p)).toNat, hJ p⟩ : Fin 16)) b p k := by
  rw [val_main_v24_apply, val_main_call1_v0_apply, val_main_call1_cst_apply, val_main_v23_apply, val_main_v22_apply,
    val_main_v21_apply, val_main_v20_apply]
  have eb : idx_main_v21 (idx_main_v22 (ix3 b p k)) = ix1 k := funext fun a => Fin.ext (by match a with | ⟨0, _⟩ => rfl)
  have es : ∀ f : Fin 128, val_main_v19 (F := Ideal) x0 x1 x2 x7 x8 (lidx_main_v20 (ix3 b p k) f) * x3 (ridx_main_v20 (ix3 b p k) f)
      = PairNet.act1 x0 x1 x2 (fun p : Fin 120 => (⟨(x7 (ix1 p)).toNat, hI p⟩ : Fin 16))
        (fun p : Fin 120 => (⟨(x8 (ix1 p)).toNat, hJ p⟩ : Fin 16)) b p f * x3 (ix2 f k) := fun f => by
    have el : lidx_main_v20 (ix3 b p k) f = ix3 b p f :=
      funext fun a => Fin.ext (by match a with | ⟨0, _⟩ => rfl | ⟨1, _⟩ => rfl | ⟨2, _⟩ => rfl)
    have er : ridx_main_v20 (ix3 b p k) f = ix2 f k :=
      funext fun a => Fin.ext (by match a with | ⟨0, _⟩ => rfl | ⟨1, _⟩ => rfl)
    rw [el, er, v19_at x0 x1 x2 x7 x8 hI hJ]
  rw [eb, Finset.sum_congr rfl fun f _ => es f]
  rfl

/-- The third layer. -/
theorem v29_at (b : Fin 1024) (p : Fin 120) (k : Fin 128) :
    val_main_v29 (F := Ideal) x0 x1 x2 x3 x4 x5 x6 x7 x8 (ix3 b p k) = PairNet.act3 x0 x1 x2 x3 x4 x5 x6 (fun p : Fin 120 => (⟨(x7 (ix1 p)).toNat, hI p⟩ : Fin 16))
        (fun p : Fin 120 => (⟨(x8 (ix1 p)).toNat, hJ p⟩ : Fin 16)) b p k := by
  rw [val_main_v29_apply, val_main_call2_v0_apply, val_main_call2_cst_apply, val_main_v28_apply, val_main_v27_apply,
    val_main_v26_apply, val_main_v25_apply]
  have eb : idx_main_v26 (idx_main_v27 (ix3 b p k)) = ix1 k := funext fun a => Fin.ext (by match a with | ⟨0, _⟩ => rfl)
  have es : ∀ f : Fin 128, val_main_v24 (F := Ideal) x0 x1 x2 x3 x4 x7 x8 (lidx_main_v25 (ix3 b p k) f) * x5 (ridx_main_v25 (ix3 b p k) f)
      = PairNet.act2 x0 x1 x2 x3 x4 (fun p : Fin 120 => (⟨(x7 (ix1 p)).toNat, hI p⟩ : Fin 16))
        (fun p : Fin 120 => (⟨(x8 (ix1 p)).toNat, hJ p⟩ : Fin 16)) b p f * x5 (ix2 f k) := fun f => by
    have el : lidx_main_v25 (ix3 b p k) f = ix3 b p f :=
      funext fun a => Fin.ext (by match a with | ⟨0, _⟩ => rfl | ⟨1, _⟩ => rfl | ⟨2, _⟩ => rfl)
    have er : ridx_main_v25 (ix3 b p k) f = ix2 f k :=
      funext fun a => Fin.ext (by match a with | ⟨0, _⟩ => rfl | ⟨1, _⟩ => rfl)
    rw [el, er, v24_at x0 x1 x2 x3 x4 x7 x8 hI hJ]
  rw [eb, Finset.sum_congr rfl fun f _ => es f]
  rfl

end Layers

theorem ref_eq (x0 : (⟨S1024x16x128, .f32⟩ : BufTy).Contents (Elt Ideal)) (x1 : (⟨S256x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 x8 : (⟨S120, .i32⟩ : BufTy).Contents (Elt Ideal))
    (hI : ∀ p : Fin 120, (x7 (ix1 p)).toNat < 16) (hJ : ∀ p : Fin 120, (x8 (ix1 p)).toNat < 16) :
    val_main_v32 (F := Ideal) x0 x1 x2 x3 x4 x5 x6 x7 x8
      = Cert.PairNet.out x0 x1 x2 x3 x4 x5 x6 (fun p => ⟨(x7 (ix1 p)).toNat, hI p⟩) (fun p => ⟨(x8 (ix1 p)).toNat, hJ p⟩) := by
  funext i
  rw [val_main_v32_apply, Ideal.hostDivf_def, val_main_v31_apply, val_main_cst_3_apply, val_main_v30_apply,
    val_main_cst_apply, Ideal.ofBits_def, Ideal.ofBits_def, Ideal.ofBits_zero_f32, zero_add]
  unfold Cert.PairNet.out
  refine congrArg (fun s => Ideal.div s _) (Finset.sum_congr rfl fun p _ => ?_)
  have e : idx_main_v30 i p = ix3 (i 0) p (i 1) :=
    funext fun a => Fin.ext (by match a with | ⟨0, _⟩ => rfl | ⟨1, _⟩ => rfl | ⟨2, _⟩ => rfl)
  rw [e]
  exact v29_at x0 x1 x2 x3 x4 x5 x6 x7 x8 hI hJ (i 0) p (i 1)

end Cert.ReferenceIdeal.RefVal

end
-- ==== Proof.PreIdx.lean ====
/-
  The precondition's two added conjuncts, read back: every word of the two index arrays is, read unsigned, below 16.
-/
import proofs.«404360_j20074677141790_3_alg».proof.Defs
import proofs.«404360_j20074677141790_3_alg».proof.Proof.Gen.Pre_finite_inputs
import Idealize.ShloMosaic.Lib.ValueIdx
import Idealize.ShloMosaic.Lib.ReduceAll
import Idealize.ShloMosaic.Lib.StableHlo.Predicate

noncomputable section

namespace Cert.Proof.PreIdx

open Idealize.ShloMosaic Idealize.SL.Sem Idealize.ShloMosaic.ValueIdx

/-- The rank-0 shape has one index. -/
instance subsingleton_scalar_idx : Subsingleton Cert.Pre_finite_inputs.S_.Idx :=
  ⟨fun a b => funext fun d => d.elim0⟩

/-- A word that is, read signed, at least 0 and below 16 is, read unsigned, below 16:
    a word with its top bit set reads negative, so the top bit is clear and both readings agree. -/
theorem toNat_lt_sixteen (w : BitVec 32) (h0 : IntOp.cmpi .sge w (0#32) = 1#1)
    (h16 : IntOp.cmpi .slt w (16#32) = 1#1) : w.toNat < 16 := by
  rw [IntOp.cmpi_sge] at h0
  rw [IntOp.cmpi_slt] at h16
  have e0 : (0#32 : BitVec 32).toInt = 0 := by decide
  have e16 : (16#32 : BitVec 32).toInt = 16 := by decide
  rw [e0] at h0
  rw [e16] at h16
  have h32 := w.isLt
  rw [BitVec.toInt_eq_toNat_cond] at h0 h16
  split at h0 <;> omega

/-- One `all` of the conjunction: an array whose every word passes both signed compares (at least 0, below 16)
    under a reduction by `and` that came out 1 has every word below 16 unsigned. -/
theorem lt_of_all (x : IVec Cert.Pre_finite_inputs.S120 32) (p : Fin 120)
    (e : Host.reduce IntOp.andi
        (andi (cmpi .sge x (broadcastInDim Cert.Pre_finite_inputs.S120 ![] Cert.Pre_finite_inputs.Facts.bcast_S_S120
                (constantI Cert.Pre_finite_inputs.S_ 32 0#32)))
              (cmpi .slt x (broadcastInDim Cert.Pre_finite_inputs.S120 ![] Cert.Pre_finite_inputs.Facts.bcast_S_S120
                (constantI Cert.Pre_finite_inputs.S_ 32 16#32))))
        (constantI Cert.Pre_finite_inputs.S_ 1 1#1)
        Cert.Pre_finite_inputs.Facts.reducesTo_S120_S_d0 Cert.Pre_finite_inputs.Facts.h_S_ ix0 = 1#1) :
    (x (ix1 p)).toNat < 16 := by
  have k := Host.reduce_andi_all _ _ _ _ _ e (ix1 p)
  obtain ⟨a, b⟩ := IntOp.andi_eq_one.1 k
  exact toNat_lt_sixteen _ a b

theorem idx_lt (m : (ℓ : Loc Cert.KernelIdeal.nD Cert.KernelIdeal.τ Cert.KernelIdeal.sig) → Buf (Elt Ideal) ℓ)
    (h : Cert.Pre_KernelIdeal m) (c : Dev Cert.KernelIdeal.nD) (p : Fin 120) :
    (m ((c.tc : Thread Cert.KernelIdeal.nD Cert.KernelIdeal.τ).loc Cert.KernelIdeal.main_arg7) (ix1 p)).toNat < 16
    ∧ (m ((c.tc : Thread Cert.KernelIdeal.nD Cert.KernelIdeal.τ).loc Cert.KernelIdeal.main_arg8) (ix1 p)).toNat < 16 := by
  have e := congrFun (h c) ix0
  simp only [Cert.Pre_finite_inputs.fn, Cert.Pre_finite_inputs.fn_part1, Cert.Pre_finite_inputs.fn_part2] at e
  obtain ⟨e1, e8⟩ := IntOp.andi_eq_one.1 e
  obtain ⟨_, e7⟩ := IntOp.andi_eq_one.1 e1
  exact ⟨lt_of_all _ p e7, lt_of_all _ p e8⟩

end Cert.Proof.PreIdx

end
-- ==== Proof.lean ====
/-
  A pairwise relation network on 1024 samples of 16 channels by 128 features, against its reference.

  Both programs compute, for every sample and every one of 120 pairs of channels, three affine layers of width 128,
  each followed by `max · 0`, on the pair's two channels concatenated, and then the mean over the pairs. The
  reference gathers the two channels of each pair and multiplies the 256 concatenated features by the first weight
  matrix. The kernel sends every channel once through the two halves of that matrix and picks a pair's two rows by
  a selection matrix it builds from the index arrays, a one-hot row per index word: row `i` of the upper half's
  products plus the bias, plus row `j` of the lower half's. The two first layers are the same sum in another
  grouping; the later layers and the mean are the same expressions. A change of float format is the identity on
  the extended reals, and no step uses a law that fails at the infinities, so the finiteness of the float inputs is
  not used. What is used is that every index word names a channel, `0 ≤ index < 16`: outside that range a one-hot
  row is all zeros while the reference's gather clamps or wraps the index, and the two programs differ.
-/
import proofs.«404360_j20074677141790_3_alg».proof.Defs
import proofs.«404360_j20074677141790_3_alg».proof.Proof.Gen.Kernel
import proofs.«404360_j20074677141790_3_alg».proof.Proof.Gen.Kernel.Skeleton
import proofs.«404360_j20074677141790_3_alg».proof.Proof.Gen.Kernel.Launch
import proofs.«404360_j20074677141790_3_alg».proof.Proof.Gen.Kernel.Points
import proofs.«404360_j20074677141790_3_alg».proof.Proof.Gen.Kernel.Frame
import proofs.«404360_j20074677141790_3_alg».proof.Proof.Gen.KernelIdeal
import proofs.«404360_j20074677141790_3_alg».proof.Proof.Gen.KernelIdeal.Skeleton
import proofs.«404360_j20074677141790_3_alg».proof.Proof.Gen.KernelIdeal.Launch
import proofs.«404360_j20074677141790_3_alg».proof.Proof.Gen.KernelIdeal.Points
import proofs.«404360_j20074677141790_3_alg».proof.Proof.Gen.KernelIdeal.Frame
import proofs.«404360_j20074677141790_3_alg».proof.Proof.Gen.ReferenceIdeal
import proofs.«404360_j20074677141790_3_alg».proof.Proof.Gen.Pre_finite_inputs
import proofs.«404360_j20074677141790_3_alg».proof.Proof.Gen.KernelIdeal.Value
import proofs.«404360_j20074677141790_3_alg».proof.Proof.Gen.ReferenceIdeal.Run
import proofs.«404360_j20074677141790_3_alg».proof.Proof.Gen.ReferenceIdeal.Read
import proofs.«404360_j20074677141790_3_alg».proof.Proof.Blocks
import proofs.«404360_j20074677141790_3_alg».proof.Proof.RefVal
import proofs.«404360_j20074677141790_3_alg».proof.Proof.PreIdx
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array ends at the network's result of its arguments (the blocks'
    cover), and the reference's at the network's result of arguments that agree with them: one function. -/
theorem algebraic : Cert.algebraic_KernelIdeal_ReferenceIdeal := by
  intro m ρ m' ρ' hpre hagree
  have hI : ∀ (c : Dev Cert.KernelIdeal.nD) (p : Fin 120),
      (m ((c : Thread Cert.KernelIdeal.nD Cert.KernelIdeal.τ).loc Cert.KernelIdeal.main_arg7) (ix1 p)).toNat < 16 :=
    fun c p => (Cert.Proof.PreIdx.idx_lt m hpre c p).1
  have hJ : ∀ (c : Dev Cert.KernelIdeal.nD) (p : Fin 120),
      (m ((c : Thread Cert.KernelIdeal.nD Cert.KernelIdeal.τ).loc Cert.KernelIdeal.main_arg8) (ix1 p)).toNat < 16 :=
    fun c p => (Cert.Proof.PreIdx.idx_lt m hpre c p).2
  refine ⟨fun c => Cert.KernelIdeal.Blocks.net m c (hI c) (hJ c), Cert.KernelIdeal.Blocks.run m ρ hI hJ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact Cert.ReferenceIdeal.RefVal.ref_eq _ _ _ _ _ _ _ _ _ (hI c) (hJ c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
